-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S_ : Shape := ⟨0, ![]⟩

class Facts : Prop where
  bcast_S_S50000x1x32 : S_.BroadcastsInDim S50000x1x32 (![] : Fin 0 → Fin S50000x1x32.rank)
  reducesTo_S50000x1x32_S_d0_1_2 : S50000x1x32.ReducesTo [0, 1, 2] S_
  h_S_ : 0 < S_.numel
  bcast_S_S800000x1x32 : S_.BroadcastsInDim S800000x1x32 (![] : Fin 0 → Fin S800000x1x32.rank)
  reducesTo_S800000x1x32_S_d0_1_2 : S800000x1x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg13 : FVec F S8 .f32) (main_v48 : IVec S_ 1) (main_v49 : FVec F S8x256 .f32) (main_v50 : FVec F S8x256 .f32) : IVec S_ 1 :=
  let main_v51 : IVec S8x256 1 := cmpf .olt main_v49 main_v50
  let main_c_19 : IVec S_ 1 := constantI S_ 1 1#1
  let main_v52 : IVec S_ 1 := (fun x v => Host.reduce IntOp.andi x v reducesTo_S8x256_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg9 : FVec F S128 .f32) (main_arg10 : FVec F S128x32 .f32) (main_arg11 : FVec F S128 .f32) (main_arg12 : FVec F S8x256 .f32) (main_arg13 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg10
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S8x256 .f32 := Host.absf main_arg12
  let main_cst_18 : FVec F S_ .f32 := constant S_ .f32 0x7F800000#32
  let main_v50 : FVec F S8x256 .f32 := broadcastInDim S8x256 ![] bcast_S_S8x256 main_cst_18
  fn_part3 (F := F) main_arg13 main_v48 main_v49 main_v50

def fn_part1 {F : FTy → Type} [FloatOps F] (main_arg6 : FVec F S128x64 .f32) (main_arg7 : FVec F S128 .f32) (main_arg8 : FVec F S128x128 .f32) (main_arg9 : FVec F S128 .f32) (main_arg10 : FVec F S128x32 .f32) (main_arg11 : FVec F S128 .f32) (main_arg12 : FVec F S8x256 .f32) (main_arg13 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S800000 32) (main_arg1 : IVec S800000 32) (main_arg2 : FVec F S50000x1x32 .f32) (main_arg3 : FVec F S800000x1x32 .f32) (main_arg4 : FVec F S32x32 .f32) (main_arg5 : FVec F S32 .f32) (main_arg6 : FVec F S128x64 .f32) (main_arg7 : FVec F S128 .f32) (main_arg8 : FVec F S128x128 .f32) (main_arg9 : FVec F S128 .f32) (main_arg10 : FVec F S128x32 .f32) (main_arg11 : FVec F S128 .f32) (main_arg12 : FVec F S8x256 .f32) (main_arg13 : FVec F S8 .f32) : IVec S_ 1 :=
  let main_v0 : FVec F S50000x1x32 .f32 := Host.absf main_arg2
  let main_cst : FVec F S_ .f32 := constant S_ .f32 0x7F800000#32
  let main_v1 : FVec F S50000x1x32 .f32 := broadcastInDim S50000x1x32 ![] bcast_S_S50000x1x32 main_cst
  let main_v2 : IVec S50000x1x32 1 := cmpf .olt main_v0 main_v1
  let main_c : IVec S_ 1 := constantI S_ 1 1#1
  let main_v3 : IVec S_ 1 := (fun x v => Host.reduce IntOp.andi x v reducesTo_S50000x1x32_S_d0_1_2 h_S_) main_v2 main_c
  let main_v4 : FVec F S800000x1x32 .f32 := Host.absf main_arg3
  let main_cst_0 : FVec F S_ .f32 := constant S_ .f32 0x7F800000#32
  let main_v5 : FVec F S800000x1x32 .f32 := broadcastInDim S800000x1x32 ![] bcast_S_S800000x1x32 main_cst_0
  let main_v6 : IVec S800000x1x32 1 := cmpf .olt main_v4 main_v5
  let main_c_1 : IVec S_ 1 := constantI S_ 1 1#1
  let main_v7 : IVec S_ 1 := (fun x v => Host.reduce IntOp.andi x v reducesTo_S800000x1x32_S_d0_1_2 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_v13 main_v16
-- ==== Kernel.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S800000x32 : Shape := ⟨2, ![800000, 32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x32 : Shape := ⟨2, ![1, 32]⟩
abbrev S20000x32 : Shape := ⟨2, ![20000, 32]⟩
abbrev S50000x32 : Shape := ⟨2, ![50000, 32]⟩
abbrev S32x128 : Shape := ⟨2, ![32, 128]⟩
abbrev S1x128 : Shape := ⟨2, ![1, 128]⟩
abbrev S800000x128 : Shape := ⟨2, ![800000, 128]⟩
abbrev S8000x32 : Shape := ⟨2, ![8000, 32]⟩
abbrev S8000x128 : Shape := ⟨2, ![8000, 128]⟩
abbrev S50000x128 : Shape := ⟨2, ![50000, 128]⟩
abbrev S10000x128 : Shape := ⟨2, ![10000, 128]⟩
abbrev S8x128 : Shape := ⟨2, ![8, 128]⟩
abbrev S128x8 : Shape := ⟨2, ![128, 8]⟩
abbrev S1x8 : Shape := ⟨2, ![1, 8]⟩
abbrev S800000x8 : Shape := ⟨2, ![800000, 8]⟩
abbrev S8000x8 : Shape := ⟨2, ![8000, 8]⟩

abbrev nBuf : Space → Nat
  | .hbm => 84
  | .vmem => 34
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x1x32, .f32⟩
  | .hbm, ⟨3, _⟩ => ⟨S800000x1x32, .f32⟩
  | .hbm, ⟨4, _⟩ => ⟨S32x32, .f32⟩
  | .hbm, ⟨5, _⟩ => ⟨S32, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x32, .f32⟩
  | .hbm, ⟨11, _⟩ => ⟨S128, .f32⟩
  | .hbm, ⟨12, _⟩ => ⟨S8x256, .f32⟩
  | .hbm, ⟨13, _⟩ => ⟨S8, .f32⟩
  | .hbm, ⟨14, _⟩ => ⟨S800000x32, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S1x32, .f32⟩
  | .hbm, ⟨26, _⟩ => ⟨S800000x32, .f32⟩
  | .hbm, ⟨27, _⟩ => ⟨S_, .f32⟩
  | .hbm, ⟨28, _⟩ => ⟨S50000x32, .f32⟩
  | .hbm, ⟨29, _⟩ => ⟨S800000x1, .i32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S_, .f32⟩
  | .hbm, ⟨34, _⟩ => ⟨S50000x32, .f32⟩
  | .hbm, ⟨35, _⟩ => ⟨S50000x32, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .f32⟩
  | .hbm, ⟨45, _⟩ => ⟨S128x32, .f32⟩
  | .hbm, ⟨46, _⟩ => ⟨S32x128, .f32⟩
  | .hbm, ⟨47, _⟩ => ⟨S128x32, .f32⟩
  | .hbm, ⟨48, _⟩ => ⟨S32x128, .f32⟩
  | .hbm, ⟨49, _⟩ => ⟨S1x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S8x128, .f32⟩
  | .hbm, ⟨78, _⟩ => ⟨S128x8, .f32⟩
  | .hbm, ⟨79, _⟩ => ⟨S8x128, .f32⟩
  | .hbm, ⟨80, _⟩ => ⟨S128x8, .f32⟩
  | .hbm, ⟨81, _⟩ => ⟨S1x128, .f32⟩
  | .hbm, ⟨82, _⟩ => ⟨S1x8, .f32⟩
  | .hbm, ⟨83, _⟩ => ⟨S800000x8, .f32⟩
  | .local _ .vmem, ⟨0, _⟩ => ⟨S20000x32, .f32⟩
  | .local _ .vmem, ⟨1, _⟩ => ⟨S20000x32, .f32⟩
  | .local _ .vmem, ⟨2, _⟩ => ⟨S32x32, .f32⟩
  | .local _ .vmem, ⟨3, _⟩ => ⟨S1x32, .f32⟩
  | .local _ .vmem, ⟨4, _⟩ => ⟨S20000x32, .f32⟩
  | .local _ .vmem, ⟨5, _⟩ => ⟨S20000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S32x128, .f32⟩
  | .local _ .vmem, ⟨11, _⟩ => ⟨S32x128, .f32⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x32, .f32⟩
  | .local _ .vmem, ⟨26, _⟩ => ⟨S8000x32, .f32⟩
  | .local _ .vmem, ⟨27, _⟩ => ⟨S128x32, .f32⟩
  | .local _ .vmem, ⟨28, _⟩ => ⟨S1x128, .f32⟩
  | .local _ .vmem, ⟨29, _⟩ => ⟨S128x8, .f32⟩
  | .local _ .vmem, ⟨30, _⟩ => ⟨S128x8, .f32⟩
  | .local _ .vmem, ⟨31, _⟩ => ⟨S1x8, .f32⟩
  | .local _ .vmem, ⟨32, _⟩ => ⟨S8000x8, .f32⟩
  | .local _ .vmem, ⟨33, _⟩ => ⟨S8000x8, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8000x8 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S800000x1x32_S800000x32 : S800000x1x32.ShapeCasts S800000x32
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S32_S1x32 : S32.ShapeCasts S1x32
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  slices_S128x64_S128x32_0_0 : S128x64.Slices ![0, 0] S128x32
  transposes_S128x32_S32x128_1_0 : S128x32.Transposes [1, 0] S32x128
  slices_S128x64_S128x32_0_32 : S128x64.Slices ![0, 32] S128x32
  shapeCasts_S128_S1x128 : S128.ShapeCasts S1x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S10000x128 : S1x128.Broadcasts S10000x128
  slices_S8x256_S8x128_0_0 : S8x256.Slices ![0, 0] S8x128
  transposes_S8x128_S128x8_1_0 : S8x128.Transposes [1, 0] S128x8
  slices_S8x256_S8x128_0_128 : S8x256.Slices ![0, 128] S8x128
  shapeCasts_S8_S1x8 : S8.ShapeCasts S1x8
  shapeCasts_S8000x128_S8000x128 : S8000x128.ShapeCasts S8000x128
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  scatter_S50000_S800000x1_S800000_n_0_0_1_wf : ScatterDims.WF S50000 S800000x1 S800000 [] [0] [0] 1
  dot_S20000x32_S32x32_S20000x32_1_0_0_1_n_n_wf : DotDims.WF S20000x32 S32x32 S20000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S8000x128_S128x8_S8000x8_1_0_0_1_n_n_wf : DotDims.WF S8000x128 S128x8 S8000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S800000x32.size a
  hwx0_0 : ∀ i : grid0.Coords, EltTy.bits .f32 = 32 ∨ (Rect.block (s := S800000x32) S20000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x32.size a ≤ S800000x32.size a
  hwx0_3 : ∀ i : grid0.Coords, EltTy.bits .f32 = 32 ∨ (Rect.block (s := S800000x32) S20000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S800000x32.size a
  hwx1_1 : ∀ i : grid1.Coords, EltTy.bits .f32 = 32 ∨ (Rect.block (s := S800000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .f32 = 32 ∨ (Rect.block (s := S800000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S800000x32.size a
  hwx3_2 : ∀ i : grid3.Coords, EltTy.bits .f32 = 32 ∨ (Rect.block (s := S800000x32) S8000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x32.size a ≤ S128x32.size a
  hwx3_3 : ∀ i : grid3.Coords, EltTy.bits .f32 = 32 ∨ (Rect.block (s := S128x32) S128x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x8.size a ≤ S128x8.size a
  hwx3_5 : ∀ i : grid3.Coords, EltTy.bits .f32 = 32 ∨ (Rect.block (s := S128x8) S128x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x8.size a ≤ S128x8.size a
  hwx3_6 : ∀ i : grid3.Coords, EltTy.bits .f32 = 32 ∨ (Rect.block (s := S128x8) S128x8.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x8.size a ≤ S1x8.size a
  hwx3_7 : ∀ i : grid3.Coords, EltTy.bits .f32 = 32 ∨ (Rect.block (s := S1x8) S1x8.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8000x8.size a ≤ S800000x8.size a
  hwx3_8 : ∀ i : grid3.Coords, EltTy.bits .f32 = 32 ∨ (Rect.block (s := S800000x8) S8000x8.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf

abbrev win0_0 : Pipeline.Window sig grid0 :=
  Pipeline.Window.ofSpec (Memref.whole main_v0) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S20000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S8000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S128x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S128x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S1x8.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v56) S8000x8.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S800000 : Shape := ⟨1, ![800000]⟩
abbrev S50000x1x32 : Shape := ⟨3, ![50000, 1, 32]⟩
abbrev S800000x1x32 : Shape := ⟨3, ![800000, 1, 32]⟩
abbrev S32x32 : Shape := ⟨2, ![32, 32]⟩
abbrev S32 : Shape := ⟨1, ![32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S8x256 : Shape := ⟨2, ![8, 256]⟩
abbrev S8 : Shape := ⟨1, ![8]⟩
abbrev S800000x32 : Shape := ⟨2, ![800000, 32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x32 : Shape := ⟨2, ![1, 32]⟩
abbrev S50000x32 : Shape := ⟨2, ![50000, 32]⟩
abbrev S800000x64 : Shape := ⟨2, ![800000, 64]⟩
abbrev S64x128 : Shape := ⟨2, ![64, 128]⟩
abbrev S800000x128 : Shape := ⟨2, ![800000, 128]⟩
abbrev S1x128 : Shape := ⟨2, ![1, 128]⟩
abbrev S50000x128 : Shape := ⟨2, ![50000, 128]⟩
abbrev S32x128 : Shape := ⟨2, ![32, 128]⟩
abbrev S800000x256 : Shape := ⟨2, ![800000, 256]⟩
abbrev S256x8 : Shape := ⟨2, ![256, 8]⟩
abbrev S800000x8 : Shape := ⟨2, ![800000, 8]⟩
abbrev S1x8 : Shape := ⟨2, ![1, 8]⟩

abbrev nBuf : Space → Nat
  | .hbm => 106
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x1x32, .f32⟩
  | .hbm, ⟨3, _⟩ => ⟨S800000x1x32, .f32⟩
  | .hbm, ⟨4, _⟩ => ⟨S32x32, .f32⟩
  | .hbm, ⟨5, _⟩ => ⟨S32, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x32, .f32⟩
  | .hbm, ⟨11, _⟩ => ⟨S128, .f32⟩
  | .hbm, ⟨12, _⟩ => ⟨S8x256, .f32⟩
  | .hbm, ⟨13, _⟩ => ⟨S8, .f32⟩
  | .hbm, ⟨14, _⟩ => ⟨S800000x32, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S800000x32, .f32⟩
  | .hbm, ⟨26, _⟩ => ⟨S32x32, .f32⟩
  | .hbm, ⟨27, _⟩ => ⟨S800000x32, .f32⟩
  | .hbm, ⟨28, _⟩ => ⟨S1x32, .f32⟩
  | .hbm, ⟨29, _⟩ => ⟨S800000x32, .f32⟩
  | .hbm, ⟨30, _⟩ => ⟨S800000x32, .f32⟩
  | .hbm, ⟨31, _⟩ => ⟨S_, .f32⟩
  | .hbm, ⟨32, _⟩ => ⟨S50000x32, .f32⟩
  | .hbm, ⟨33, _⟩ => ⟨S800000x1, .i32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000x32, .f32⟩
  | .hbm, ⟨39, _⟩ => ⟨S50000x32, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x32, .f32⟩
  | .hbm, ⟨49, _⟩ => ⟨S800000x64, .f32⟩
  | .hbm, ⟨50, _⟩ => ⟨S64x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S800000x128, .f32⟩
  | .hbm, ⟨81, _⟩ => ⟨S800000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S32x128, .f32⟩
  | .hbm, ⟨96, _⟩ => ⟨S800000x128, .f32⟩
  | .hbm, ⟨97, _⟩ => ⟨S1x128, .f32⟩
  | .hbm, ⟨98, _⟩ => ⟨S800000x128, .f32⟩
  | .hbm, ⟨99, _⟩ => ⟨S800000x128, .f32⟩
  | .hbm, ⟨100, _⟩ => ⟨S800000x256, .f32⟩
  | .hbm, ⟨101, _⟩ => ⟨S256x8, .f32⟩
  | .hbm, ⟨102, _⟩ => ⟨S800000x8, .f32⟩
  | .hbm, ⟨103, _⟩ => ⟨S1x8, .f32⟩
  | .hbm, ⟨104, _⟩ => ⟨S800000x8, .f32⟩
  | .hbm, ⟨105, _⟩ => ⟨S800000x8, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_c_8 : Ref sig .tc := ⟨.hbm, 82, rfl⟩
abbrev main_v54 : Ref sig .tc := ⟨.hbm, 83, rfl⟩
abbrev main_v55 : Ref sig .tc := ⟨.hbm, 84, rfl⟩
abbrev main_c_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  shapeCasts_S800000x1x32_S800000x32 : S800000x1x32.ShapeCasts S800000x32
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S32x32_S32x32_1_0 : S32x32.Transposes [1, 0] S32x32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  concatenates_S800000x32_S800000x32_S800000x64_d1 : Shape.Concatenates [S800000x32, S800000x32] S800000x64 1
  transposes_S128x64_S64x128_1_0 : S128x64.Transposes [1, 0] S64x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S1x128_S50000x128_0_1 : S1x128.BroadcastsInDim S50000x128 (![0, 1] : Fin 2 → Fin S50000x128.rank)
  bcast_S_S800000x128 : S_.BroadcastsInDim S800000x128 (![] : Fin 0 → Fin S800000x128.rank)
  transposes_S128x32_S32x128_1_0 : S128x32.Transposes [1, 0] S32x128
  concatenates_S800000x128_S800000x128_S800000x256_d1 : Shape.Concatenates [S800000x128, S800000x128] S800000x256 1
  transposes_S8x256_S256x8_1_0 : S8x256.Transposes [1, 0] S256x8
  bcast_S8_S1x8_1 : S8.BroadcastsInDim S1x8 (![1] : Fin 1 → Fin S1x8.rank)
  bcast_S1x8_S800000x8_0_1 : S1x8.BroadcastsInDim S800000x8 (![0, 1] : Fin 2 → Fin S800000x8.rank)
  scatter_S50000_S800000x1_S800000_n_0_0_1_wf : ScatterDims.WF S50000 S800000x1 S800000 [] [0] [0] 1
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  dot_S800000x64_S64x128_S800000x128_1_0_0_1_n_n_wf : DotDims.WF S800000x64 S64x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x32_S32x128_S800000x128_1_0_0_1_n_n_wf : DotDims.WF S800000x32 S32x128 S800000x128 [1] [0] [0] [1] [] []
  dot_S800000x256_S256x8_S800000x8_1_0_0_1_n_n_wf : DotDims.WF S800000x256 S256x8 S800000x8 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x256_S256x8_S800000x8_1_0_0_1_n_n : DotDims S800000x256 S256x8 S800000x8 where
  lhsContracting := [1]
  rhsContracting := [0]
  lhsNonContracting := [0]
  rhsNonContracting := [1]
  lhsBatch := []
  rhsBatch := []
  wf := dot_S800000x256_S256x8_S800000x8_1_0_0_1_n_n_wf

class Facts : Prop extends Facts₀ where

variable [Facts]
-- ==== Proof.Spec.lean ====
/-
  What the four linear stages of the message-passing network compute, entry by entry, on the extended reals.

  Every stage takes a block of rows (`n` of them: a kernel's tile or the whole array alike) and produces, for row
  `p` and output column `q`, a sum over the input columns of that SAME row, plus a bias read from a one-row array:
  * `linDouble`   : `∑ k, (x p k + x p k) · W q k + b 0 q` — the doubled row against the rows of `W` (`(x + x) Wᵀ + b`);
  * `linPair`     : `∑ k, h p k · U k q + ∑ k, e p k · V k q + b 0 q` — two inputs, each against its own table;
  * `linDoubleRelu`: `max (linDouble …) 0`;
  * `scoreRow`    : the edge score — `a p j · 10 + c p j · 10` against `U`, the inner linear map
    `∑ k, e p k · T j k + t 0 j` against `V`, plus `b 0 q`.
  The zero of the rectifier and the factor ten stay the float words they are printed as: both programs carry the
  same words, so their values are never needed.
-/
import Idealize.ShloMosaic.Lib.ValueIdx
import Idealize.ShloMosaic.PureOps.Ideal

noncomputable section

namespace Cert.Spec

open Idealize.ShloMosaic Idealize.ShloMosaic.ValueIdx

/-- An array of `[n, m]` given entry by entry. -/
abbrev of2 {n m : ℕ} {α : Type} (f : Fin n → Fin m → α) : (⟨2, ![n, m]⟩ : Shape).Idx → α := fun i => f (i 0) (i 1)

theorem of2_ix2 {n m : ℕ} {α : Type} (f : Fin n → Fin m → α) (p : Fin n) (q : Fin m) : of2 f (ix2 p q) = f p q := rfl

/-- Two `[n, m]` arrays that agree at every `(p, q)` are equal. -/
theorem ext2 {n m : ℕ} {α : Type} {f g : (⟨2, ![n, m]⟩ : Shape).Idx → α} (h : ∀ (p : Fin n) (q : Fin m), f (ix2 p q) = g (ix2 p q)) :
    f = g := funext fun i => by rw [eq_ix2 i]; exact h _ _

/-- The float word of `0.0`, read at the ideal values (never evaluated). -/
abbrev zeroW : EReal := Ideal.ofBits .f32 0x00000000#32
/-- The float word of `10.0`, read at the ideal values (never evaluated). -/
abbrev tenW : EReal := Ideal.ofBits .f32 0x41200000#32

variable {n : ℕ}

/-- `(x + x) Wᵀ + b`: row `p` doubled, against row `q` of `W`. -/
def linDouble {K N : ℕ} (x : (⟨2, ![n, K]⟩ : Shape).Idx → EReal) (W : (⟨2, ![N, K]⟩ : Shape).Idx → EReal)
    (b : (⟨2, ![1, N]⟩ : Shape).Idx → EReal) : (⟨2, ![n, N]⟩ : Shape).Idx → EReal :=
  of2 fun p q => (∑ k : Fin K, (x (ix2 p k) + x (ix2 p k)) * W (ix2 q k)) + b (ix2 (0 : Fin 1) q)

/-- `h U + e V + b`: two inputs, each against its own table. -/
def linPair {K N : ℕ} (h e : (⟨2, ![n, K]⟩ : Shape).Idx → EReal) (U V : (⟨2, ![K, N]⟩ : Shape).Idx → EReal)
    (b : (⟨2, ![1, N]⟩ : Shape).Idx → EReal) : (⟨2, ![n, N]⟩ : Shape).Idx → EReal :=
  of2 fun p q => ((∑ k : Fin K, h (ix2 p k) * U (ix2 k q)) + (∑ k : Fin K, e (ix2 p k) * V (ix2 k q))) + b (ix2 (0 : Fin 1) q)

/-- `max ((x + x) Wᵀ + b) 0`. -/
def linDoubleRelu {K N : ℕ} (x : (⟨2, ![n, K]⟩ : Shape).Idx → EReal) (W : (⟨2, ![N, K]⟩ : Shape).Idx → EReal)
    (b : (⟨2, ![1, N]⟩ : Shape).Idx → EReal) : (⟨2, ![n, N]⟩ : Shape).Idx → EReal :=
  of2 fun p q => max ((∑ k : Fin K, (x (ix2 p k) + x (ix2 p k)) * W (ix2 q k)) + b (ix2 (0 : Fin 1) q)) zeroW

/-- The edge score: `(10 a + 10 c) U + (e Tᵀ + t) V + b`. -/
def scoreRow {H K N : ℕ} (a c : (⟨2, ![n, H]⟩ : Shape).Idx → EReal) (e : (⟨2, ![n, K]⟩ : Shape).Idx → EReal)
    (T : (⟨2, ![H, K]⟩ : Shape).Idx → EReal) (t : (⟨2, ![1, H]⟩ : Shape).Idx → EReal)
    (U V : (⟨2, ![H, N]⟩ : Shape).Idx → EReal) (b : (⟨2, ![1, N]⟩ : Shape).Idx → EReal) : (⟨2, ![n, N]⟩ : Shape).Idx → EReal :=
  of2 fun p q =>
    ((∑ j : Fin H, (a (ix2 p j) * tenW + c (ix2 p j) * tenW) * U (ix2 j q))
      + (∑ j : Fin H, ((∑ k : Fin K, e (ix2 p k) * T (ix2 j k)) + t (ix2 (0 : Fin 1) j)) * V (ix2 j q)))
    + b (ix2 (0 : Fin 1) q)

/-! ## A stage of a block of rows is the stage of the whole array, read at those rows

Each stage's entry `(p, q)` reads its row inputs at row `p` only. So if a block `x` of `n` rows holds rows
`ρ 0 … ρ (n-1)` of an array `X`, the stage of the block at `(p, q)` is the stage of the array at `(ρ p, q)`. -/

variable {m : ℕ}

theorem linDouble_rows {K N : ℕ} (ρ : Fin n → Fin m) (x : (⟨2, ![n, K]⟩ : Shape).Idx → EReal) (X : (⟨2, ![m, K]⟩ : Shape).Idx → EReal)
    (hx : ∀ p k, x (ix2 p k) = X (ix2 (ρ p) k)) (W : (⟨2, ![N, K]⟩ : Shape).Idx → EReal) (b : (⟨2, ![1, N]⟩ : Shape).Idx → EReal)
    (p : Fin n) (q : Fin N) : linDouble x W b (ix2 p q) = linDouble X W b (ix2 (ρ p) q) := by
  show (∑ k : Fin K, (x (ix2 p k) + x (ix2 p k)) * W (ix2 q k)) + b (ix2 (0 : Fin 1) q)
    = (∑ k : Fin K, (X (ix2 (ρ p) k) + X (ix2 (ρ p) k)) * W (ix2 q k)) + b (ix2 (0 : Fin 1) q)
  simp only [hx]

theorem linPair_rows {K N : ℕ} (ρ : Fin n → Fin m) (h e : (⟨2, ![n, K]⟩ : Shape).Idx → EReal) (H E : (⟨2, ![m, K]⟩ : Shape).Idx → EReal)
    (hh : ∀ p k, h (ix2 p k) = H (ix2 (ρ p) k)) (he : ∀ p k, e (ix2 p k) = E (ix2 (ρ p) k))
    (U V : (⟨2, ![K, N]⟩ : Shape).Idx → EReal) (b : (⟨2, ![1, N]⟩ : Shape).Idx → EReal)
    (p : Fin n) (q : Fin N) : linPair h e U V b (ix2 p q) = linPair H E U V b (ix2 (ρ p) q) := by
  show ((∑ k : Fin K, h (ix2 p k) * U (ix2 k q)) + (∑ k : Fin K, e (ix2 p k) * V (ix2 k q))) + b (ix2 (0 : Fin 1) q)
    = ((∑ k : Fin K, H (ix2 (ρ p) k) * U (ix2 k q)) + (∑ k : Fin K, E (ix2 (ρ p) k) * V (ix2 k q))) + b (ix2 (0 : Fin 1) q)
  simp only [hh, he]

theorem linDoubleRelu_rows {K N : ℕ} (ρ : Fin n → Fin m) (x : (⟨2, ![n, K]⟩ : Shape).Idx → EReal) (X : (⟨2, ![m, K]⟩ : Shape).Idx → EReal)
    (hx : ∀ p k, x (ix2 p k) = X (ix2 (ρ p) k)) (W : (⟨2, ![N, K]⟩ : Shape).Idx → EReal) (b : (⟨2, ![1, N]⟩ : Shape).Idx → EReal)
    (p : Fin n) (q : Fin N) : linDoubleRelu x W b (ix2 p q) = linDoubleRelu X W b (ix2 (ρ p) q) := by
  show max ((∑ k : Fin K, (x (ix2 p k) + x (ix2 p k)) * W (ix2 q k)) + b (ix2 (0 : Fin 1) q)) zeroW
    = max ((∑ k : Fin K, (X (ix2 (ρ p) k) + X (ix2 (ρ p) k)) * W (ix2 q k)) + b (ix2 (0 : Fin 1) q)) zeroW
  simp only [hx]

theorem scoreRow_rows {H K N : ℕ} (ρ : Fin n → Fin m) (a c : (⟨2, ![n, H]⟩ : Shape).Idx → EReal) (e : (⟨2, ![n, K]⟩ : Shape).Idx → EReal)
    (A C : (⟨2, ![m, H]⟩ : Shape).Idx → EReal) (E : (⟨2, ![m, K]⟩ : Shape).Idx → EReal)
    (ha : ∀ p j, a (ix2 p j) = A (ix2 (ρ p) j)) (hc : ∀ p j, c (ix2 p j) = C (ix2 (ρ p) j)) (he : ∀ p k, e (ix2 p k) = E (ix2 (ρ p) k))
    (T : (⟨2, ![H, K]⟩ : Shape).Idx → EReal) (t : (⟨2, ![1, H]⟩ : Shape).Idx → EReal)
    (U V : (⟨2, ![H, N]⟩ : Shape).Idx → EReal) (b : (⟨2, ![1, N]⟩ : Shape).Idx → EReal)
    (p : Fin n) (q : Fin N) : scoreRow a c e T t U V b (ix2 p q) = scoreRow A C E T t U V b (ix2 (ρ p) q) := by
  show ((∑ j : Fin H, (a (ix2 p j) * tenW + c (ix2 p j) * tenW) * U (ix2 j q))
      + (∑ j : Fin H, ((∑ k : Fin K, e (ix2 p k) * T (ix2 j k)) + t (ix2 (0 : Fin 1) j)) * V (ix2 j q))) + b (ix2 (0 : Fin 1) q)
    = ((∑ j : Fin H, (A (ix2 (ρ p) j) * tenW + C (ix2 (ρ p) j) * tenW) * U (ix2 j q))
      + (∑ j : Fin H, ((∑ k : Fin K, E (ix2 (ρ p) k) * T (ix2 j k)) + t (ix2 (0 : Fin 1) j)) * V (ix2 j q))) + b (ix2 (0 : Fin 1) q)
  simp only [ha, hc, he]

end Cert.Spec

end
-- ==== Proof.KernelTerms.lean ====
/-
  The tiled program's values as functions of the launch memory, one definition per stage of the network:
  the edge features, the index columns, the mean's denominator, layer 1's message and node features, layer 2's
  message, aggregate and node features, and the edge scores. The four linear stages are the entrywise functions of
  `Spec`; everything between them (the scatter-adds of the mean, the division, the rectifier, the gathers, the
  slices and transposes of the weights) is the host operation the program applies, as printed.
-/
import proofs.«167760_j30245159698931_1_alg».proof.Proof.Gen.KernelIdeal
import proofs.«167760_j30245159698931_1_alg».proof.Proof.Spec
import Idealize.ShloMosaic.PureOps.Ideal

noncomputable section

namespace Cert.KernelIdeal.Chain

open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD)

/-! ## The program's values, as functions of the launch memory -/

/-- Argument `r`'s launch contents on core `c`. -/
abbrev arg (r : Ref sig .tc) : Buf (Elt Ideal) ((c : Thread nD τ).loc r) := m ((c : Thread nD τ).loc r)

/-- The edge features `[E, 32]`: the `[E, 1, 32]` argument with its unit axis dropped. -/
def edges : FVec Ideal S800000x32 .f32 := shapeCast _ (arg m c main_arg3) shapeCasts_S800000x1x32_S800000x32

/-- The destination (resp. wrapped source, wrapped destination) indices as a column of start indices: a negative
    index wraps around by the node count before the gather. -/
def dstCol : IVec S800000x1 32 := broadcastInDim S800000x1 ![0] bcast_S800000_S800000x1_0 (arg m c main_arg1)
def wrapCol (ix : IVec S800000 32) : IVec S800000x1 32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- The mean's denominator per node, as a column: the in-degree (ones scatter-added at the destinations), at least one. -/
def denom : FVec Ideal S50000x1 .f32 :=
  broadcastInDim S50000x1 ![0] bcast_S50000_S50000x1_0
    (maximumf (Host.scatterAdd scatter_S50000_S800000x1_S800000_n_0_0_1 (broadcastInDim S50000 ![] bcast_S_S50000 (constant S_ .f32 0x00000000#32))
        (dstCol m c) (broadcastInDim S800000 ![] bcast_S_S800000 (constant S_ .f32 0x3F800000#32)))
      (broadcastInDim S50000 ![] bcast_S_S50000 (constant S_ .f32 0x3F800000#32)))

/-- Layer 1's message. -/
def msg1 : FVec Ideal S800000x32 .f32 :=
  linDouble (edges m c) (arg m c main_arg4) (shapeCast _ (arg m c main_arg5) shapeCasts_S32_S1x32)

/-- Layer 1's node features: the messages summed at their destinations, over the denominator, rectified. -/
def nodes1 : FVec Ideal S50000x32 .f32 :=
  maximumf (Host.divf (Host.scatterAdd scatter_S50000x32_S800000x1_S800000x32_1_0_0_1
        (broadcastInDim S50000x32 ![] bcast_S_S50000x32 (constant S_ .f32 0x00000000#32)) (dstCol m c) (msg1 m c))
      (broadcastInDim S50000x32 ![0, 1] bcast_S50000x1_S50000x32_0_1 (denom m c)))
    (broadcastInDim S50000x32 ![] bcast_S_S50000x32 (constant S_ .f32 0x00000000#32))

/-- Layer 2's message: the source's features and the edge's, each against its half of the weight. -/
def msg2 : FVec Ideal S800000x128 .f32 :=
  linPair (Host.gather gather_S50000x32_S800000x1_S800000x32_1_0_n_n_0_1_132 (nodes1 m c) (wrapCol (arg m c main_arg0)))
    (edges m c)
    (transpose S32x128 [1, 0] (extractStridedSlice S128x32 ![0, 0] (arg m c main_arg6) slices_S128x64_S128x32_0_0) transposes_S128x32_S32x128_1_0)
    (transpose S32x128 [1, 0] (extractStridedSlice S128x32 ![0, 32] (arg m c main_arg6) slices_S128x64_S128x32_0_32) transposes_S128x32_S32x128_1_0)
    (shapeCast _ (arg m c main_arg7) shapeCasts_S128_S1x128)

/-- Layer 2's aggregate: the messages summed at their destinations, over the denominator. -/
def agg2 : FVec Ideal S50000x128 .f32 :=
  Host.divf (Host.scatterAdd scatter_S50000x128_S800000x1_S800000x128_1_0_0_1
      (broadcastInDim S50000x128 ![] bcast_S_S50000x128 (constant S_ .f32 0x00000000#32)) (dstCol m c) (msg2 m c))
    (broadcastInDim S50000x128 ![0, 1] bcast_S50000x1_S50000x128_0_1 (denom m c))

/-- Layer 2's node features. -/
def nodes2 : FVec Ideal S50000x128 .f32 :=
  linDoubleRelu (agg2 m c) (arg m c main_arg8) (shapeCast _ (arg m c main_arg9) shapeCasts_S128_S1x128)

/-- The edge scores. -/
def score : FVec Ideal S800000x8 .f32 :=
  scoreRow (Host.gather gather_S50000x128_S800000x1_S800000x128_1_0_n_n_0_1_1128 (nodes2 m c) (wrapCol (arg m c main_arg0)))
    (Host.gather gather_S50000x128_S800000x1_S800000x128_1_0_n_n_0_1_1128 (nodes2 m c) (wrapCol (arg m c main_arg1)))
    (edges m c) (arg m c main_arg10) (shapeCast _ (arg m c main_arg11) shapeCasts_S128_S1x128)
    (transpose S128x8 [1, 0] (extractStridedSlice S8x128 ![0, 0] (arg m c main_arg12) slices_S8x256_S8x128_0_0) transposes_S8x128_S128x8_1_0)
    (transpose S128x8 [1, 0] (extractStridedSlice S8x128 ![0, 128] (arg m c main_arg12) slices_S8x256_S8x128_0_128) transposes_S8x128_S128x8_1_0)
    (shapeCast _ (arg m c main_arg13) shapeCasts_S8_S1x8)

end Cert.KernelIdeal.Chain

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.RegionA.lean ====
/-
  The first region (the message of layer 1) as a whole-array function: for every edge `p` and output feature `q`,
  `m1 p q = ∑ k, (e p k + e p k) · W q k + b 0 q` — `(e + e) Wᵀ + b` — where `e`, `W`, `b` are the arrays the
  region finds at entry. The 40 grid points each compute 20000 rows of it; their tiles cover the array.
-/
import proofs.«167760_j30245159698931_1_alg».proof.Proof.Gen.KernelIdeal.Frame
import proofs.«167760_j30245159698931_1_alg».proof.Proof.Spec
import proofs.«167760_j30245159698931_1_alg».proof.Proof.LibPlainDot
import Idealize.ShloMosaic.Lib.Pipeline.Value
import Idealize.ShloMosaic.Lib.ValueLayout

set_option maxRecDepth 16384

noncomputable section

namespace Cert.KernelIdeal.StageA

open Idealize.ShloMosaic Idealize.ShloMosaic.TcCoe Idealize.ShloMosaic.ValueIdx Cert.KernelIdeal Cert.KernelIdeal.Gen Cert.Spec
open Idealize.ShloMosaic.Pipeline (Dat)

/-- The body's one stored value, entry by entry: the tile's row `p` doubled, against row `q` of the weight block
    (the body transposes the block before the product), plus the bias row. The casts to `bf16` are the identity on
    the extended reals, and the product into the zero accumulator is the plain sum. -/
theorem pay_eq (x0 : Vec Ideal S20000x32 .f32) (x1 : Vec Ideal S32x32 .f32) (x2 : Vec Ideal S1x32 .f32) :
    k0_pay1 (F := Ideal) x0 x1 x2 = linDouble x0 x1 x2 := by
  refine ext2 fun p q => ?_
  unfold k0_pay1
  dsimp only
  rw [addf_apply, PlainDot.matmul_zero_apply dot_S20000x32_S32x32_S20000x32_1_0_0_1_n_n rfl, broadcastTo_1b_ab_apply, shapeCast_self]
  have ht : ∀ k : Fin 32, transpose S32x32 [1, 0] (truncf FTy.bf16 x1 bitsLt_bf16_f32) transposes_S32x32_p1_0_S32x32 (ix2 k q)
      = (truncf FTy.bf16 x1 bitsLt_bf16_f32 : FVec Ideal S32x32 .bf16) (ix2 q k) :=
    fun k => transpose_ix2_apply (truncf FTy.bf16 x1 bitsLt_bf16_f32 : FVec Ideal S32x32 .bf16) transposes_S32x32_p1_0_S32x32 k q
  simp only [truncf_apply, addf_apply, shapeCast_self, ht]
  rfl

variable (V : (c : Dev nD) → (b : Ref sig .tc) → Buf (Elt Ideal) ((c : Thread nD τ).loc b))

/-- The edge features as the region finds them, by their literal types. -/
abbrev eIn (c : Dev nD) : FVec Ideal S800000x32 .f32 := V c main_v0
abbrev wIn (c : Dev nD) : FVec Ideal S32x32 .f32 := V c main_arg4
abbrev bIn (c : Dev nD) : FVec Ideal S1x32 .f32 := V c main_v8

/-- The all-zero offset of a whole-buffer access. -/
theorem hz : (![0, 0] : Fin 2 → Nat) = fun _ => 0 := funext fun a => by fin_cases a <;> rfl

/-- The printed index maps over the 40 grid points: the edge tile and the output tile move with the point along the
    rows; the weight block and the bias row stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `20000 t + p` of the array. -/
def row (t : Fin cfg0.N) (p : Fin 20000) : Fin 800000 :=
  ⟨t.val * 20000 + p.val, by have ht : t.val < 40 := N_0 ▸ t.isLt; have := p.isLt; omega⟩

/-- What point `t` writes back is tile `t` of the stage applied to the WHOLE arrays: a tile's row `p` is row
    `20000 t + p` of the edge features, and the stage reads its row input at that row only. -/
theorem flushed_eq (c : Dev nD) (t : Fin cfg0.N) :
    (dat0 V c).flushed 3 t = ((cfg0.win 3).blk t).view.read (Elt Ideal) (linDouble (eIn V c) (wIn V c) (bIn V c)) := by
  show (cfg0.win 3).cut (grid0.coords t) ((dat0 V c).after 3 t) = _
  rw [after0_3]
  unfold out0_3
  rw [View.canon_unit_zero hz]
  simp only [View.ld_unit_zero (S := S20000x32) hz, View.ld_unit_zero (S := S32x32) hz, View.ld_unit_zero (S := S1x32) hz]
  rw [pay_eq]
  funext j
  show linDouble (n := 20000) (iblk0 V c 0 t) (iblk0 V c 1 t) (iblk0 V c 2 t) j
     = linDouble (n := 800000) (eIn V c) (wIn V c) (bIn V c) (((cfg0.win 3).blk t).view.emb j)
  obtain ⟨p, q, rfl⟩ : ∃ (p : Fin 20000) (q : Fin 32), j = ix2 p q := ⟨j 0, j 1, eq_ix2 j⟩
  obtain ⟨e00, e01, e10, e11, e20, e21, e30, e31⟩ := idx_facts t
  have hout : ((cfg0.win 3).blk t).view.emb (ix2 p q) = ix2 (row t p) q := by
    funext a; apply Fin.ext
    match a with
    | ⟨0, _⟩ => show win0_3.index t (0 : Fin 2) * 20000 + 1 * p.val = t.val * 20000 + p.val; omega
    | ⟨1, _⟩ => show win0_3.index t (1 : Fin 2) * 32 + 1 * q.val = q.val; omega
  have hW : (iblk0 V c 1 t : Vec Ideal S32x32 .f32) = wIn V c := by
    funext y
    show V c main_arg4 (((cfg0.win 1).blk t).view.emb y) = V c main_arg4 y
    refine congrArg (V c main_arg4) ?_
    funext a; apply Fin.ext
    match a with
    | ⟨0, _⟩ => show win0_1.index t (0 : Fin 2) * 32 + 1 * (y 0).val = (y 0).val; omega
    | ⟨1, _⟩ => show win0_1.index t (1 : Fin 2) * 32 + 1 * (y 1).val = (y 1).val; omega
  have hB : (iblk0 V c 2 t : Vec Ideal S1x32 .f32) = bIn V c := by
    funext y
    show V c main_v8 (((cfg0.win 2).blk t).view.emb y) = V c main_v8 y
    refine congrArg (V c main_v8) ?_
    funext a; apply Fin.ext
    match a with
    | ⟨0, _⟩ => show win0_2.index t (0 : Fin 2) * 1 + 1 * (y 0).val = (y 0).val; omega
    | ⟨1, _⟩ => show win0_2.index t (1 : Fin 2) * 32 + 1 * (y 1).val = (y 1).val; omega
  have hE : ∀ (p : Fin 20000) (k : Fin 32), (iblk0 V c 0 t : Vec Ideal S20000x32 .f32) (ix2 p k) = eIn V c (ix2 (row t p) k) := by
    intro p k
    show V c main_v0 (((cfg0.win 0).blk t).view.emb (ix2 p k)) = V c main_v0 (ix2 (row t p) k)
    refine congrArg (V c main_v0) ?_
    funext a; apply Fin.ext
    match a with
    | ⟨0, _⟩ => show win0_0.index t (0 : Fin 2) * 20000 + 1 * p.val = t.val * 20000 + p.val; omega
    | ⟨1, _⟩ => show win0_0.index t (1 : Fin 2) * 32 + 1 * k.val = k.val; omega
  rw [hout, hW, hB]
  exact linDouble_rows (row t) _ _ hE _ _ p q

/-- An index lies in point `t`'s output tile iff each coordinate lies in the tile's range on its axis. -/
theorem mem_blk (t : Fin cfg0.N) (i : S800000x32.Idx) :
    i ∈ ((cfg0.win 3).blk t).view.set ↔ ∀ a : Fin 2, win0_3.index t a * S20000x32.size a ≤ (i a).val ∧ (i a).val < win0_3.index t a * S20000x32.size a + S20000x32.size a := by
  show i ∈ ((View.whole main_v9).slice (win0_3.rect t)).set ↔ _
  rw [View.set_slice_whole, Rect.mem_set_unit]
  exact Iff.rfl

/-- The 40 output tiles of 20000 rows cover the 800000 rows: row `r` lies in tile `r / 20000`. -/
theorem cover (i : S800000x32.Idx) : ∃ t : Fin cfg0.N, (cfg0.win 3).flush t = true ∧ i ∈ ((cfg0.win 3).blk t).view.set := by
  have hi0 : (i 0).val < 800000 := (i 0).isLt
  have hi1 : (i 1).val < 32 := (i 1).isLt
  let t : Fin cfg0.N := ⟨(i 0).val / 20000, by rw [show cfg0.N = 40 from N_0]; omega⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 20000 ≤ (i 0).val ∧ (i 0).val < win0_3.index t (0 : Fin 2) * 20000 + 20000; rw [e30]; show (i 0).val / 20000 * 20000 ≤ _ ∧ _ < (i 0).val / 20000 * 20000 + 20000; omega
  | ⟨1, _⟩ => show win0_3.index t (1 : Fin 2) * 32 ≤ (i 1).val ∧ (i 1).val < win0_3.index t (1 : Fin 2) * 32 + 32; omega

/-- The message array after the first region: the doubled edge features against `W`'s rows, plus the bias. -/
theorem final (c : Dev nD) : (dat0 V c).arrAt 3 cfg0.N = linDouble (eIn V c) (wIn V c) (bIn V c) :=
  (dat0 V c).arrAt_eq_of_cover 3 _ (fun t _ => flushed_eq V c t) cover

end Cert.KernelIdeal.StageA

end
-- ==== Proof.RegionB.lean ====
/-
  The second region (the message of layer 2) as a whole-array function: for every edge `p` and output feature `q`,
  `m2 p q = ∑ k, h p k · U k q + ∑ k, e p k · V k q + b 0 q`, where `h` (the node features gathered at the edge's
  source), `e`, the two tables and the bias row are the arrays the region finds at entry. The 100 grid points each
  compute 8000 rows of it; their tiles cover the array.
-/
import proofs.«167760_j30245159698931_1_alg».proof.Proof.Gen.KernelIdeal.Frame
import proofs.«167760_j30245159698931_1_alg».proof.Proof.Spec
import proofs.«167760_j30245159698931_1_alg».proof.Proof.LibPlainDot
import Idealize.ShloMosaic.Lib.Pipeline.Value
import Idealize.ShloMosaic.Lib.ValueLayout

set_option maxRecDepth 16384

noncomputable section

namespace Cert.KernelIdeal.StageB

open Idealize.ShloMosaic Idealize.ShloMosaic.TcCoe Idealize.ShloMosaic.ValueIdx Cert.KernelIdeal Cert.KernelIdeal.Gen Cert.Spec
open Idealize.ShloMosaic.Pipeline (Dat)

/-- The body's one stored value, entry by entry: the gathered node row against the first table plus the edge row
    against the second, plus the bias row; the casts to `bf16` are the identity on the extended reals and each
    product into the zero accumulator is the plain sum. -/
theorem pay_eq (x0 x1 : Vec Ideal S8000x32 .f32) (x2 x3 : Vec Ideal S32x128 .f32) (x4 : Vec Ideal S1x128 .f32) :
    k1_pay1 (F := Ideal) x0 x1 x2 x3 x4 = linPair x0 x1 x2 x3 x4 := by
  refine ext2 fun p q => ?_
  unfold k1_pay1
  try dsimp only
  rw [addf_apply, addf_apply, PlainDot.matmul_zero_apply dot_S8000x32_S32x128_S8000x128_1_0_0_1_n_n rfl,
    PlainDot.matmul_zero_apply dot_S8000x32_S32x128_S8000x128_1_0_0_1_n_n rfl, broadcastTo_1b_ab_apply]
  simp only [truncf_apply, shapeCast_self]
  rfl

variable (V : (c : Dev nD) → (b : Ref sig .tc) → Buf (Elt Ideal) ((c : Thread nD τ).loc b))

/-- The arrays the region finds at entry, by their literal types: the gathered node features, the edge features, the
    two halves of the weight (already transposed), the bias row. -/
abbrev hIn (c : Dev nD) : FVec Ideal S800000x32 .f32 := V c main_v22
abbrev eIn (c : Dev nD) : FVec Ideal S800000x32 .f32 := V c main_v0
abbrev uIn (c : Dev nD) : FVec Ideal S32x128 .f32 := V c main_v24
abbrev vIn (c : Dev nD) : FVec Ideal S32x128 .f32 := V c main_v26
abbrev bIn (c : Dev nD) : FVec Ideal S1x128 .f32 := V c main_v27

/-- The all-zero offset of a whole-buffer access. -/
theorem hz : (![0, 0] : Fin 2 → Nat) = fun _ => 0 := funext fun a => by fin_cases a <;> rfl

/-- The printed index maps over the 100 grid points: the two row inputs and the output move with the point along the
    rows; the tables and the bias row stay at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s tile is row `8000 t + p` of the array. -/
def row (t : Fin cfg1.N) (p : Fin 8000) : Fin 800000 :=
  ⟨t.val * 8000 + p.val, by have ht : t.val < 100 := N_1 ▸ t.isLt; have := p.isLt; omega⟩

/-- What point `t` writes back is tile `t` of the stage applied to the WHOLE arrays. -/
theorem flushed_eq (c : Dev nD) (t : Fin cfg1.N) :
    (dat1 V c).flushed 5 t = ((cfg1.win 5).blk t).view.read (Elt Ideal) (linPair (hIn V c) (eIn V c) (uIn V c) (vIn V c) (bIn V c)) := by
  show (cfg1.win 5).cut (grid1.coords t) ((dat1 V c).after 5 t) = _
  rw [after1_5]
  unfold out1_5
  rw [View.canon_unit_zero hz]
  simp only [View.ld_unit_zero (S := S8000x32) hz, View.ld_unit_zero (S := S32x128) hz, View.ld_unit_zero (S := S1x128) hz]
  rw [pay_eq]
  funext j
  show linPair (n := 8000) (iblk1 V c 0 t) (iblk1 V c 1 t) (iblk1 V c 2 t) (iblk1 V c 3 t) (iblk1 V c 4 t) j
     = linPair (n := 800000) (hIn V c) (eIn V c) (uIn V c) (vIn V c) (bIn V c) (((cfg1.win 5).blk t).view.emb j)
  obtain ⟨p, q, rfl⟩ : ∃ (p : Fin 8000) (q : Fin 128), j = ix2 p q := ⟨j 0, j 1, eq_ix2 j⟩
  obtain ⟨e00, e01, e10, e11, e20, e21, e30, e31, e40, e41, e50, e51⟩ := idx_facts t
  have hout : ((cfg1.win 5).blk t).view.emb (ix2 p q) = ix2 (row t p) q := by
    funext a; apply Fin.ext
    match a with
    | ⟨0, _⟩ => show win1_5.index t (0 : Fin 2) * 8000 + 1 * p.val = t.val * 8000 + p.val; omega
    | ⟨1, _⟩ => show win1_5.index t (1 : Fin 2) * 128 + 1 * q.val = q.val; omega
  have hU : (iblk1 V c 2 t : Vec Ideal S32x128 .f32) = uIn V c := by
    funext y
    show V c main_v24 (((cfg1.win 2).blk t).view.emb y) = V c main_v24 y
    refine congrArg (V c main_v24) ?_
    funext a; apply Fin.ext
    match a with
    | ⟨0, _⟩ => show win1_2.index t (0 : Fin 2) * 32 + 1 * (y 0).val = (y 0).val; omega
    | ⟨1, _⟩ => show win1_2.index t (1 : Fin 2) * 128 + 1 * (y 1).val = (y 1).val; omega
  have hV : (iblk1 V c 3 t : Vec Ideal S32x128 .f32) = vIn V c := by
    funext y
    show V c main_v26 (((cfg1.win 3).blk t).view.emb y) = V c main_v26 y
    refine congrArg (V c main_v26) ?_
    funext a; apply Fin.ext
    match a with
    | ⟨0, _⟩ => show win1_3.index t (0 : Fin 2) * 32 + 1 * (y 0).val = (y 0).val; omega
    | ⟨1, _⟩ => show win1_3.index t (1 : Fin 2) * 128 + 1 * (y 1).val = (y 1).val; omega
  have hB : (iblk1 V c 4 t : Vec Ideal S1x128 .f32) = bIn V c := by
    funext y
    show V c main_v27 (((cfg1.win 4).blk t).view.emb y) = V c main_v27 y
    refine congrArg (V c main_v27) ?_
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  have hH : ∀ (p : Fin 8000) (k : Fin 32), (iblk1 V c 0 t : Vec Ideal S8000x32 .f32) (ix2 p k) = hIn V c (ix2 (row t p) k) := by
    intro p k
    show V c main_v22 (((cfg1.win 0).blk t).view.emb (ix2 p k)) = V c main_v22 (ix2 (row t p) k)
    refine congrArg (V c main_v22) ?_
    funext a; apply Fin.ext
    match a with
    | ⟨0, _⟩ => show win1_0.index t (0 : Fin 2) * 8000 + 1 * p.val = t.val * 8000 + p.val; omega
    | ⟨1, _⟩ => show win1_0.index t (1 : Fin 2) * 32 + 1 * k.val = k.val; omega
  have hE : ∀ (p : Fin 8000) (k : Fin 32), (iblk1 V c 1 t : Vec Ideal S8000x32 .f32) (ix2 p k) = eIn V c (ix2 (row t p) k) := by
    intro p k
    show V c main_v0 (((cfg1.win 1).blk t).view.emb (ix2 p k)) = V c main_v0 (ix2 (row t p) k)
    refine congrArg (V c main_v0) ?_
    funext a; apply Fin.ext
    match a with
    | ⟨0, _⟩ => show win1_1.index t (0 : Fin 2) * 8000 + 1 * p.val = t.val * 8000 + p.val; omega
    | ⟨1, _⟩ => show win1_1.index t (1 : Fin 2) * 32 + 1 * k.val = k.val; omega
  rw [hout, hU, hV, hB]
  exact linPair_rows (row t) _ _ _ _ hH hE _ _ _ p q

/-- An index lies in point `t`'s output tile iff each coordinate lies in the tile's range on its axis. -/
theorem mem_blk (t : Fin cfg1.N) (i : S800000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v28).slice (win1_5.rect t)).set ↔ _
  rw [View.set_slice_whole, Rect.mem_set_unit]
  exact Iff.rfl

/-- The 100 output tiles of 8000 rows cover the 800000 rows: row `r` lies in tile `r / 8000`. -/
theorem cover (i : S800000x128.Idx) : ∃ t : Fin cfg1.N, (cfg1.win 5).flush t = true ∧ i ∈ ((cfg1.win 5).blk t).view.set := by
  have hi0 : (i 0).val < 800000 := (i 0).isLt
  have hi1 : (i 1).val < 128 := (i 1).isLt
  let t : Fin cfg1.N := ⟨(i 0).val / 8000, by rw [show cfg1.N = 100 from N_1]; omega⟩
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 8000 ≤ (i 0).val ∧ (i 0).val < win1_5.index t (0 : Fin 2) * 8000 + 8000; rw [e50]; show (i 0).val / 8000 * 8000 ≤ _ ∧ _ < (i 0).val / 8000 * 8000 + 8000; omega
  | ⟨1, _⟩ => show win1_5.index t (1 : Fin 2) * 128 ≤ (i 1).val ∧ (i 1).val < win1_5.index t (1 : Fin 2) * 128 + 128; omega

/-- The message array after the second region. -/
theorem final (c : Dev nD) : (dat1 V c).arrAt 5 cfg1.N = linPair (hIn V c) (eIn V c) (uIn V c) (vIn V c) (bIn V c) :=
  (dat1 V c).arrAt_eq_of_cover 5 _ (fun t _ => flushed_eq V c t) cover

end Cert.KernelIdeal.StageB

end
-- ==== Proof.RegionC.lean ====
/-
  The third region (the node update) as a whole-array function: for every node `p` and output feature `q`,
  `h2 p q = max (∑ k, (x p k + x p k) · W q k + b 0 q) 0` — `relu ((x + x) Wᵀ + b)` — where `x`, `W`, `b` are the
  arrays the region finds at entry. The 5 grid points each compute 10000 rows of it; their tiles cover the array.
-/
import proofs.«167760_j30245159698931_1_alg».proof.Proof.Gen.KernelIdeal.Frame
import proofs.«167760_j30245159698931_1_alg».proof.Proof.Spec
import proofs.«167760_j30245159698931_1_alg».proof.Proof.LibPlainDot
import Idealize.ShloMosaic.Lib.Pipeline.Value
import Idealize.ShloMosaic.Lib.ValueLayout

set_option maxRecDepth 16384

noncomputable section

namespace Cert.KernelIdeal.StageC

open Idealize.ShloMosaic Idealize.ShloMosaic.TcCoe Idealize.ShloMosaic.ValueIdx Cert.KernelIdeal Cert.KernelIdeal.Gen Cert.Spec
open Idealize.ShloMosaic.Pipeline (Dat)

/-- The body's one stored value, entry by entry: the tile's row `p` doubled, against row `q` of the weight block, plus
    the bias row, then the maximum with the word of zero. -/
theorem pay_eq (x0 : Vec Ideal S10000x128 .f32) (x1 : Vec Ideal S128x128 .f32) (x2 : Vec Ideal S1x128 .f32) :
    k2_pay1 (F := Ideal) x0 x1 x2 = linDoubleRelu x0 x1 x2 := by
  refine ext2 fun p q => ?_
  unfold k2_pay1
  dsimp only
  rw [maximumf_apply, addf_apply, PlainDot.matmul_zero_apply dot_S10000x128_S128x128_S10000x128_1_0_0_1_n_n rfl, broadcastTo_1b_ab_apply, shapeCast_self]
  have ht : ∀ k : Fin 128, transpose S128x128 [1, 0] (truncf FTy.bf16 x1 bitsLt_bf16_f32) transposes_S128x128_p1_0_S128x128 (ix2 k q)
      = (truncf FTy.bf16 x1 bitsLt_bf16_f32 : FVec Ideal S128x128 .bf16) (ix2 q k) :=
    fun k => transpose_ix2_apply (truncf FTy.bf16 x1 bitsLt_bf16_f32 : FVec Ideal S128x128 .bf16) transposes_S128x128_p1_0_S128x128 k q
  simp only [truncf_apply, addf_apply, shapeCast_self, ht]
  rfl

variable (V : (c : Dev nD) → (b : Ref sig .tc) → Buf (Elt Ideal) ((c : Thread nD τ).loc b))

/-- The arrays the region finds at entry, by their literal types: the aggregated neighbour features, the weight, the
    bias row. -/
abbrev xIn (c : Dev nD) : FVec Ideal S50000x128 .f32 := V c main_v33
abbrev wIn (c : Dev nD) : FVec Ideal S128x128 .f32 := V c main_arg8
abbrev bIn (c : Dev nD) : FVec Ideal S1x128 .f32 := V c main_v34

/-- The all-zero offset of a whole-buffer access. -/
theorem hz : (![0, 0] : Fin 2 → Nat) = fun _ => 0 := funext fun a => by fin_cases a <;> rfl

/-- The printed index maps over the 5 grid points: the node tile and the output tile move with the point along the
    rows; the weight block and the bias row stay at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of point `t`'s tile is row `10000 t + p` of the array. -/
def row (t : Fin cfg2.N) (p : Fin 10000) : Fin 50000 :=
  ⟨t.val * 10000 + p.val, by have ht : t.val < 5 := N_2 ▸ t.isLt; have := p.isLt; omega⟩

/-- What point `t` writes back is tile `t` of the stage applied to the WHOLE arrays. -/
theorem flushed_eq (c : Dev nD) (t : Fin cfg2.N) :
    (dat2 V c).flushed 3 t = ((cfg2.win 3).blk t).view.read (Elt Ideal) (linDoubleRelu (xIn V c) (wIn V c) (bIn V c)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  rw [pay_eq]
  funext j
  show linDoubleRelu (n := 10000) (iblk2 V c 0 t) (iblk2 V c 1 t) (iblk2 V c 2 t) j
     = linDoubleRelu (n := 50000) (xIn V c) (wIn V c) (bIn V c) (((cfg2.win 3).blk t).view.emb j)
  obtain ⟨p, q, rfl⟩ : ∃ (p : Fin 10000) (q : Fin 128), j = ix2 p q := ⟨j 0, j 1, eq_ix2 j⟩
  obtain ⟨e00, e01, e10, e11, e20, e21, e30, e31⟩ := idx_facts t
  have hout : ((cfg2.win 3).blk t).view.emb (ix2 p q) = ix2 (row t p) q := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  have hW : (iblk2 V c 1 t : Vec Ideal S128x128 .f32) = wIn V c := by
    funext y
    show V c main_arg8 (((cfg2.win 1).blk t).view.emb y) = V c main_arg8 y
    refine congrArg (V c main_arg8) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  have hB : (iblk2 V c 2 t : Vec Ideal S1x128 .f32) = bIn V c := by
    funext y
    show V c main_v34 (((cfg2.win 2).blk t).view.emb y) = V c main_v34 y
    refine congrArg (V c main_v34) ?_
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hX : ∀ (p : Fin 10000) (k : Fin 128), (iblk2 V c 0 t : Vec Ideal S10000x128 .f32) (ix2 p k) = xIn V c (ix2 (row t p) k) := by
    intro p k
    show V c main_v33 (((cfg2.win 0).blk t).view.emb (ix2 p k)) = V c main_v33 (ix2 (row t p) k)
    refine congrArg (V c main_v33) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  rw [hout, hW, hB]
  exact linDoubleRelu_rows (row t) _ _ hX _ _ p q

/-- An index lies in point `t`'s output tile iff each coordinate lies in the tile's range on its axis. -/
theorem mem_blk (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v35).slice (win2_3.rect t)).set ↔ _
  rw [View.set_slice_whole, Rect.mem_set_unit]
  exact Iff.rfl

/-- The 5 output tiles of 10000 rows cover the 50000 rows: row `r` lies in tile `r / 10000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 10000, by rw [show cfg2.N = 5 from N_2]; omega⟩
  obtain ⟨e00, e01, e10, e11, e20, e21, e30, e31⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; rw [e30]; show (i 0).val / 10000 * 10000 ≤ _ ∧ _ < (i 0).val / 10000 * 10000 + 10000; omega
  | ⟨1, _⟩ => show win2_3.index t (1 : Fin 2) * 128 ≤ (i 1).val ∧ (i 1).val < win2_3.index t (1 : Fin 2) * 128 + 128; omega

/-- The node features after the third region. -/
theorem final (c : Dev nD) : (dat2 V c).arrAt 3 cfg2.N = linDoubleRelu (xIn V c) (wIn V c) (bIn V c) :=
  (dat2 V c).arrAt_eq_of_cover 3 _ (fun t _ => flushed_eq V c t) cover

end Cert.KernelIdeal.StageC

end
-- ==== Proof.RegionD.lean ====
/-
  The last region (the edge score) as a whole-array function: for every edge `p` and score `q`,
  `score p q = ∑ j, (a p j · 10 + c p j · 10) · U j q + ∑ j, (∑ k, e p k · T j k + t 0 j) · V j q + b 0 q`, where `a`, `c`
  (the node features gathered at the edge's two endpoints), `e`, the inner weight `T` with its bias row `t`, the two
  tables `U`, `V` and the bias row `b` are the arrays the region finds at entry. The 100 grid points each compute 8000
  rows of it; their tiles cover the array.
-/
import proofs.«167760_j30245159698931_1_alg».proof.Proof.Gen.KernelIdeal.Frame
import proofs.«167760_j30245159698931_1_alg».proof.Proof.Spec
import proofs.«167760_j30245159698931_1_alg».proof.Proof.LibPlainDot
import Idealize.ShloMosaic.Lib.Pipeline.Value
import Idealize.ShloMosaic.Lib.ValueLayout

set_option maxRecDepth 16384

noncomputable section

namespace Cert.KernelIdeal.StageD

open Idealize.ShloMosaic Idealize.ShloMosaic.TcCoe Idealize.ShloMosaic.ValueIdx Cert.KernelIdeal Cert.KernelIdeal.Gen Cert.Spec
open Idealize.ShloMosaic.Pipeline (Dat)

/-- The body's one value, entry by entry: ten times the two gathered node rows, summed, against the first table;
    the edge row through the inner linear map (against the ROWS of its weight block, which the body transposes),
    against the second table; plus the bias row. The casts to `bf16` are the identity on the extended reals and each
    product into the zero accumulator is the plain sum. -/
theorem pay_eq (x0 x1 : Vec Ideal S8000x128 .f32) (x2 : Vec Ideal S8000x32 .f32) (x3 : Vec Ideal S128x32 .f32)
    (x4 : Vec Ideal S1x128 .f32) (x5 x6 : Vec Ideal S128x8 .f32) (x7 : Vec Ideal S1x8 .f32) :
    k3_pay1 (F := Ideal) x0 x1 x2 x3 x4 x5 x6 x7 = scoreRow x0 x1 x2 x3 x4 x5 x6 x7 := by
  refine ext2 fun p q => ?_
  unfold k3_pay1
  try dsimp only
  rw [addf_apply, addf_apply, PlainDot.matmul_zero_apply dot_S8000x128_S128x8_S8000x8_1_0_0_1_n_n rfl,
    PlainDot.matmul_zero_apply dot_S8000x128_S128x8_S8000x8_1_0_0_1_n_n rfl, broadcastTo_1b_ab_apply]
  have ht : ∀ (k : Fin 32) (j : Fin 128), transpose S32x128 [1, 0] (truncf FTy.bf16 x3 bitsLt_bf16_f32) transposes_S128x32_p1_0_S32x128 (ix2 k j)
      = (truncf FTy.bf16 x3 bitsLt_bf16_f32 : FVec Ideal S128x32 .bf16) (ix2 j k) :=
    fun k j => transpose_ix2_apply (truncf FTy.bf16 x3 bitsLt_bf16_f32 : FVec Ideal S128x32 .bf16) transposes_S128x32_p1_0_S32x128 k j
  have hb : ∀ j : Fin 128, broadcastTo S8000x128 x4 broadcasts_S1x128_S8000x128 (ix2 p j) = x4 (ix2 (0 : Fin 1) j) :=
    fun j => broadcastTo_1b_ab_apply x4 broadcasts_S1x128_S8000x128 p j
  simp only [truncf_apply, addf_apply, mulf_apply, broadcast_apply, shapeCast_self,
    PlainDot.matmul_zero_apply dot_S8000x32_S32x128_S8000x128_1_0_0_1_n_n rfl, ht, hb]
  rfl

variable (V : (c : Dev nD) → (b : Ref sig .tc) → Buf (Elt Ideal) ((c : Thread nD τ).loc b))

/-- The arrays the region finds at entry, by their literal types: the node features gathered at the two endpoints, the
    edge features, the inner weight and its bias row, the two halves of the outer weight (already transposed), the
    outer bias row. -/
abbrev aIn (c : Dev nD) : FVec Ideal S800000x128 .f32 := V c main_v42
abbrev cIn (c : Dev nD) : FVec Ideal S800000x128 .f32 := V c main_v49
abbrev eIn (c : Dev nD) : FVec Ideal S800000x32 .f32 := V c main_v0
abbrev tIn (c : Dev nD) : FVec Ideal S128x32 .f32 := V c main_arg10
abbrev sIn (c : Dev nD) : FVec Ideal S1x128 .f32 := V c main_v54
abbrev uIn (c : Dev nD) : FVec Ideal S128x8 .f32 := V c main_v51
abbrev vIn (c : Dev nD) : FVec Ideal S128x8 .f32 := V c main_v53
abbrev bIn (c : Dev nD) : FVec Ideal S1x8 .f32 := V c main_v55

/-- The all-zero offset of a whole-buffer access. -/
theorem hz : (![0, 0] : Fin 2 → Nat) = fun _ => 0 := funext fun a => by fin_cases a <;> rfl

/-- The printed index maps over the 100 grid points: the three row inputs and the output move with the point along
    the rows; the weights and the bias rows stay at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Row `p` of point `t`'s tile is row `8000 t + p` of the array. -/
def row (t : Fin cfg3.N) (p : Fin 8000) : Fin 800000 :=
  ⟨t.val * 8000 + p.val, by have ht : t.val < 100 := N_3 ▸ t.isLt; have := p.isLt; omega⟩

/-- What point `t` writes back is tile `t` of the stage applied to the WHOLE arrays. -/
theorem flushed_eq (c : Dev nD) (t : Fin cfg3.N) :
    (dat3 V c).flushed 8 t = ((cfg3.win 8).blk t).view.read (Elt Ideal)
      (scoreRow (aIn V c) (cIn V c) (eIn V c) (tIn V c) (sIn V c) (uIn V c) (vIn V c) (bIn V c)) := by
  show (cfg3.win 8).cut (grid3.coords t) ((dat3 V c).after 8 t) = _
  rw [after3_8]
  unfold out3_8
  rw [View.canon_unit_zero hz]
  simp only [View.ld_unit_zero (S := S8000x128) hz, View.ld_unit_zero (S := S8000x32) hz, View.ld_unit_zero (S := S128x32) hz,
    View.ld_unit_zero (S := S1x128) hz, View.ld_unit_zero (S := S128x8) hz, View.ld_unit_zero (S := S1x8) hz]
  rw [pay_eq]
  funext j
  show scoreRow (n := 8000) (iblk3 V c 0 t) (iblk3 V c 1 t) (iblk3 V c 2 t) (iblk3 V c 3 t) (iblk3 V c 4 t) (iblk3 V c 5 t) (iblk3 V c 6 t) (iblk3 V c 7 t) j
     = scoreRow (n := 800000) (aIn V c) (cIn V c) (eIn V c) (tIn V c) (sIn V c) (uIn V c) (vIn V c) (bIn V c) (((cfg3.win 8).blk t).view.emb j)
  obtain ⟨p, q, rfl⟩ : ∃ (p : Fin 8000) (q : Fin 8), j = ix2 p q := ⟨j 0, j 1, eq_ix2 j⟩
  obtain ⟨e00, e01, e10, e11, e20, e21, e30, e31, e40, e41, e50, e51, e60, e61, e70, e71, e80, e81⟩ := idx_facts t
  have hout : ((cfg3.win 8).blk t).view.emb (ix2 p q) = ix2 (row t p) q := by
    funext a; apply Fin.ext
    match a with
    | ⟨0, _⟩ => show win3_8.index t (0 : Fin 2) * 8000 + 1 * p.val = t.val * 8000 + p.val; omega
    | ⟨1, _⟩ => show win3_8.index t (1 : Fin 2) * 8 + 1 * q.val = q.val; omega
  have hT : (iblk3 V c 3 t : Vec Ideal S128x32 .f32) = tIn V c := by
    funext y
    show V c main_arg10 (((cfg3.win 3).blk t).view.emb y) = V c main_arg10 y
    refine congrArg (V c main_arg10) ?_
    funext a; apply Fin.ext
    match a with
    | ⟨0, _⟩ => show win3_3.index t (0 : Fin 2) * 128 + 1 * (y 0).val = (y 0).val; omega
    | ⟨1, _⟩ => show win3_3.index t (1 : Fin 2) * 32 + 1 * (y 1).val = (y 1).val; omega
  have hS : (iblk3 V c 4 t : Vec Ideal S1x128 .f32) = sIn V c := by
    funext y
    show V c main_v54 (((cfg3.win 4).blk t).view.emb y) = V c main_v54 y
    refine congrArg (V c main_v54) ?_
    funext a; apply Fin.ext
    match a with
    | ⟨0, _⟩ => show win3_4.index t (0 : Fin 2) * 1 + 1 * (y 0).val = (y 0).val; omega
    | ⟨1, _⟩ => show win3_4.index t (1 : Fin 2) * 128 + 1 * (y 1).val = (y 1).val; omega
  have hU : (iblk3 V c 5 t : Vec Ideal S128x8 .f32) = uIn V c := by
    funext y
    show V c main_v51 (((cfg3.win 5).blk t).view.emb y) = V c main_v51 y
    refine congrArg (V c main_v51) ?_
    funext a; apply Fin.ext
    match a with
    | ⟨0, _⟩ => show win3_5.index t (0 : Fin 2) * 128 + 1 * (y 0).val = (y 0).val; omega
    | ⟨1, _⟩ => show win3_5.index t (1 : Fin 2) * 8 + 1 * (y 1).val = (y 1).val; omega
  have hV : (iblk3 V c 6 t : Vec Ideal S128x8 .f32) = vIn V c := by
    funext y
    show V c main_v53 (((cfg3.win 6).blk t).view.emb y) = V c main_v53 y
    refine congrArg (V c main_v53) ?_
    funext a; apply Fin.ext
    match a with
    | ⟨0, _⟩ => show win3_6.index t (0 : Fin 2) * 128 + 1 * (y 0).val = (y 0).val; omega
    | ⟨1, _⟩ => show win3_6.index t (1 : Fin 2) * 8 + 1 * (y 1).val = (y 1).val; omega
  have hB : (iblk3 V c 7 t : Vec Ideal S1x8 .f32) = bIn V c := by
    funext y
    show V c main_v55 (((cfg3.win 7).blk t).view.emb y) = V c main_v55 y
    refine congrArg (V c main_v55) ?_
    funext a; apply Fin.ext
    match a with
    | ⟨0, _⟩ => show win3_7.index t (0 : Fin 2) * 1 + 1 * (y 0).val = (y 0).val; omega
    | ⟨1, _⟩ => show win3_7.index t (1 : Fin 2) * 8 + 1 * (y 1).val = (y 1).val; omega
  have hA : ∀ (p : Fin 8000) (k : Fin 128), (iblk3 V c 0 t : Vec Ideal S8000x128 .f32) (ix2 p k) = aIn V c (ix2 (row t p) k) := by
    intro p k
    show V c main_v42 (((cfg3.win 0).blk t).view.emb (ix2 p k)) = V c main_v42 (ix2 (row t p) k)
    refine congrArg (V c main_v42) ?_
    funext a; apply Fin.ext
    match a with
    | ⟨0, _⟩ => show win3_0.index t (0 : Fin 2) * 8000 + 1 * p.val = t.val * 8000 + p.val; omega
    | ⟨1, _⟩ => show win3_0.index t (1 : Fin 2) * 128 + 1 * k.val = k.val; omega
  have hC : ∀ (p : Fin 8000) (k : Fin 128), (iblk3 V c 1 t : Vec Ideal S8000x128 .f32) (ix2 p k) = cIn V c (ix2 (row t p) k) := by
    intro p k
    show V c main_v49 (((cfg3.win 1).blk t).view.emb (ix2 p k)) = V c main_v49 (ix2 (row t p) k)
    refine congrArg (V c main_v49) ?_
    funext a; apply Fin.ext
    match a with
    | ⟨0, _⟩ => show win3_1.index t (0 : Fin 2) * 8000 + 1 * p.val = t.val * 8000 + p.val; omega
    | ⟨1, _⟩ => show win3_1.index t (1 : Fin 2) * 128 + 1 * k.val = k.val; omega
  have hE : ∀ (p : Fin 8000) (k : Fin 32), (iblk3 V c 2 t : Vec Ideal S8000x32 .f32) (ix2 p k) = eIn V c (ix2 (row t p) k) := by
    intro p k
    show V c main_v0 (((cfg3.win 2).blk t).view.emb (ix2 p k)) = V c main_v0 (ix2 (row t p) k)
    refine congrArg (V c main_v0) ?_
    funext a; apply Fin.ext
    match a with
    | ⟨0, _⟩ => show win3_2.index t (0 : Fin 2) * 8000 + 1 * p.val = t.val * 8000 + p.val; omega
    | ⟨1, _⟩ => show win3_2.index t (1 : Fin 2) * 32 + 1 * k.val = k.val; omega
  rw [hout, hT, hS, hU, hV, hB]
  exact scoreRow_rows (row t) _ _ _ _ _ _ hA hC hE _ _ _ _ _ p q

/-- An index lies in point `t`'s output tile iff each coordinate lies in the tile's range on its axis. -/
theorem mem_blk (t : Fin cfg3.N) (i : S800000x8.Idx) :
    i ∈ ((cfg3.win 8).blk t).view.set ↔ ∀ a : Fin 2, win3_8.index t a * S8000x8.size a ≤ (i a).val ∧ (i a).val < win3_8.index t a * S8000x8.size a + S8000x8.size a := by
  show i ∈ ((View.whole main_v56).slice (win3_8.rect t)).set ↔ _
  rw [View.set_slice_whole, Rect.mem_set_unit]
  exact Iff.rfl

/-- The 100 output tiles of 8000 rows cover the 800000 rows: row `r` lies in tile `r / 8000`. -/
theorem cover (i : S800000x8.Idx) : ∃ t : Fin cfg3.N, (cfg3.win 8).flush t = true ∧ i ∈ ((cfg3.win 8).blk t).view.set := by
  have hi0 : (i 0).val < 800000 := (i 0).isLt
  have hi1 : (i 1).val < 8 := (i 1).isLt
  let t : Fin cfg3.N := ⟨(i 0).val / 8000, by rw [show cfg3.N = 100 from N_3]; omega⟩
  obtain ⟨e00, e01, e10, e11, e20, e21, e30, e31, e40, e41, e50, e51, e60, e61, e70, e71, e80, e81⟩ := idx_facts t
  refine ⟨t, flush3_8 t, ?_⟩
  rw [mem_blk]
  intro a
  match a with
  | ⟨0, _⟩ => show win3_8.index t (0 : Fin 2) * 8000 ≤ (i 0).val ∧ (i 0).val < win3_8.index t (0 : Fin 2) * 8000 + 8000; rw [e80]; show (i 0).val / 8000 * 8000 ≤ _ ∧ _ < (i 0).val / 8000 * 8000 + 8000; omega
  | ⟨1, _⟩ => show win3_8.index t (1 : Fin 2) * 8 ≤ (i 1).val ∧ (i 1).val < win3_8.index t (1 : Fin 2) * 8 + 8; omega

/-- The score array after the last region. -/
theorem final (c : Dev nD) : (dat3 V c).arrAt 8 cfg3.N
    = scoreRow (aIn V c) (cIn V c) (eIn V c) (tIn V c) (sIn V c) (uIn V c) (vIn V c) (bIn V c) :=
  (dat3 V c).arrAt_eq_of_cover 8 _ (fun t _ => flushed_eq V c t) cover

end Cert.KernelIdeal.StageD

end
-- ==== Proof.KernelChain.lean ====
/-
  The tiled program's result array is the edge score of `KernelTerms`: the contents of every buffer a region reads,
  followed from the launch memory through the host stretches (each operation's result is its function of its
  operands' contents; a buffer no operation of a stretch writes keeps its contents) and through the four regions
  (each leaves its output array at its stage of the arrays it finds at entry, and every other buffer as it was).
-/
import proofs.«167760_j30245159698931_1_alg».proof.Proof.Gen.KernelIdeal.Frame
import proofs.«167760_j30245159698931_1_alg».proof.Proof.KernelTerms
import proofs.«167760_j30245159698931_1_alg».proof.Proof.RegionA
import proofs.«167760_j30245159698931_1_alg».proof.Proof.RegionB
import proofs.«167760_j30245159698931_1_alg».proof.Proof.RegionC
import proofs.«167760_j30245159698931_1_alg».proof.Proof.RegionD
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

/-! ## What each host stretch writes, and what it therefore keeps -/

abbrev wr0 : List (Ref sig .tc) := [main_v0, main_cst, main_v1, main_cst_0, main_v2, main_v3, main_v4, main_cst_1, main_v5, main_v6, main_v7, main_v8]
abbrev wr1 : List (Ref sig .tc) := [main_cst_2, main_v10, main_v11, main_v12, main_v13, main_v14]
abbrev wr1_1 : List (Ref sig .tc) := [main_call0_cst, main_call0_v0, main_v15]
abbrev wr1_2 : List (Ref sig .tc) := [main_c, main_v16, main_v17, main_c_3, main_v18, main_v19, main_v20, main_v21, main_v22, main_v23, main_v24, main_v25, main_v26, main_v27]
abbrev wr2 : List (Ref sig .tc) := [main_cst_4, main_v29, main_v30, main_v31, main_v32, main_v33, main_v34]
abbrev wr3 : List (Ref sig .tc) := [main_c_5, main_v36, main_v37, main_c_6, main_v38, main_v39, main_v40, main_v41, main_v42, main_c_7, main_v43, main_v44, main_c_8, main_v45, main_v46, main_v47, main_v48, main_v49, main_v50, main_v51, main_v52, main_v53, main_v54, main_v55]

local macro "writes_tac" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

theorem wr0_sub : (hostOps0 : List (HloOp τ sig (Elt Ideal))).Forall fun op => op.writes ⊆ (wr0.map (Proc.devRef (τ := τ) .tc)).toFinset := by writes_tac
theorem wr1_sub : (hostOps1 : List (HloOp τ sig (Elt Ideal))).Forall fun op => op.writes ⊆ (wr1.map (Proc.devRef (τ := τ) .tc)).toFinset := by writes_tac
theorem wr1_1_sub : (hostOps1_1 : List (HloOp τ sig (Elt Ideal))).Forall fun op => op.writes ⊆ (wr1_1.map (Proc.devRef (τ := τ) .tc)).toFinset := by writes_tac
theorem wr1_2_sub : (hostOps1_2 : List (HloOp τ sig (Elt Ideal))).Forall fun op => op.writes ⊆ (wr1_2.map (Proc.devRef (τ := τ) .tc)).toFinset := by writes_tac
theorem wr2_sub : (hostOps2 : List (HloOp τ sig (Elt Ideal))).Forall fun op => op.writes ⊆ (wr2.map (Proc.devRef (τ := τ) .tc)).toFinset := by writes_tac
theorem wr3_sub : (hostOps3 : List (HloOp τ sig (Elt Ideal))).Forall fun op => op.writes ⊆ (wr3.map (Proc.devRef (τ := τ) .tc)).toFinset := by writes_tac

/-! ## What each boundary keeps -/

/-- A reference the first host stretch does not write holds its launch contents when the first region is entered. -/
theorem W1_of (r : Ref sig .tc) (h : r ∉ wr0) : W1 m ρ c (Proc.devRef .tc r) = arg m c r :=
  after_of_writes_sub hostOps0 _ wr0_sub h

/-- No region writes `r` and no host stretch after the first does. -/
abbrev Later (r : Ref sig .tc) : Prop :=
  (∀ w, Pipeline.arrRef spec0 w ≠ r) ∧ r ∉ wr1 ∧ r ∉ wr1_1 ∧ r ∉ wr1_2 ∧ (∀ w, Pipeline.arrRef spec1 w ≠ r) ∧ r ∉ wr2
    ∧ (∀ w, Pipeline.arrRef spec2 w ≠ r) ∧ r ∉ wr3

theorem carry2 (r : Ref sig .tc) (h : Later r) : W2 m ρ c (Proc.devRef .tc r) = W1 m ρ c (Proc.devRef .tc r) :=
  W2_of_ne m ρ c r h.1
theorem carry3 (r : Ref sig .tc) (h : Later r) : W3 m ρ c (Proc.devRef .tc r) = W1 m ρ c (Proc.devRef .tc r) :=
  (after_of_writes_sub hostOps1 _ wr1_sub h.2.1).trans (carry2 m ρ c r h)
theorem carry4 (r : Ref sig .tc) (h : Later r) : W4 m ρ c (Proc.devRef .tc r) = W1 m ρ c (Proc.devRef .tc r) :=
  (after_of_writes_sub hostOps1_1 _ wr1_1_sub h.2.2.1).trans (carry3 m ρ c r h)
theorem carry5 (r : Ref sig .tc) (h : Later r) : W5 m ρ c (Proc.devRef .tc r) = W1 m ρ c (Proc.devRef .tc r) :=
  (after_of_writes_sub hostOps1_2 _ wr1_2_sub h.2.2.2.1).trans (carry4 m ρ c r h)
theorem carry6 (r : Ref sig .tc) (h : Later r) : W6 m ρ c (Proc.devRef .tc r) = W1 m ρ c (Proc.devRef .tc r) :=
  (W6_of_ne m ρ c r h.2.2.2.2.1).trans (carry5 m ρ c r h)
theorem carry7 (r : Ref sig .tc) (h : Later r) : W7 m ρ c (Proc.devRef .tc r) = W1 m ρ c (Proc.devRef .tc r) :=
  (after_of_writes_sub hostOps2 _ wr2_sub h.2.2.2.2.2.1).trans (carry6 m ρ c r h)
theorem carry8 (r : Ref sig .tc) (h : Later r) : W8 m ρ c (Proc.devRef .tc r) = W1 m ρ c (Proc.devRef .tc r) :=
  (W8_of_ne m ρ c r h.2.2.2.2.2.2.1).trans (carry7 m ρ c r h)
theorem carry9 (r : Ref sig .tc) (h : Later r) : W9 m ρ c (Proc.devRef .tc r) = W1 m ρ c (Proc.devRef .tc r) :=
  (after_of_writes_sub hostOps3 _ wr3_sub h.2.2.2.2.2.2.2).trans (carry8 m ρ c r h)

/-! ## The first host stretch -/

theorem at1_edges : W1 m ρ c (Proc.devRef .tc main_v0) = edges m c := by
  show StableHlo.after hostOps0 (W0 m ρ c) (Proc.devRef .tc main_v0) = _
  after_results
  rfl

theorem at1_denom : W1 m ρ c (Proc.devRef .tc main_v7) = denom m c := by
  show StableHlo.after hostOps0 (W0 m ρ c) (Proc.devRef .tc main_v7) = _
  after_results
  rfl

theorem at1_bias : W1 m ρ c (Proc.devRef .tc main_v8) = shapeCast _ (arg m c main_arg5) shapeCasts_S32_S1x32 := by
  show StableHlo.after hostOps0 (W0 m ρ c) (Proc.devRef .tc main_v8) = _
  after_results
  rfl

/-! ## The first region, and the stretch to the second -/

theorem at2_msg1 : W2 m ρ c (Proc.devRef .tc main_v9) = msg1 m c := by
  rw [show W2 m ρ c (Proc.devRef .tc main_v9) = (dat0 (V1 m ρ) c).arrAt 3 cfg0.N from W2_arr m ρ c 3, StageA.final]
  show linDouble (W1 m ρ c (Proc.devRef .tc main_v0)) (W1 m ρ c (Proc.devRef .tc main_arg4)) (W1 m ρ c (Proc.devRef .tc main_v8)) = _
  rw [at1_edges, W1_of m ρ c main_arg4 (by decide), at1_bias]
  rfl

theorem later_arg0 : Later main_arg0 := by decide
theorem later_arg1 : Later main_arg1 := by decide
theorem later_v7 : Later main_v7 := by decide

theorem at3_div : W3 m ρ c (Proc.devRef .tc main_v14)
    = Host.divf (Host.scatterAdd scatter_S50000x32_S800000x1_S800000x32_1_0_0_1
        (broadcastInDim S50000x32 ![] bcast_S_S50000x32 (constant S_ .f32 0x00000000#32)) (dstCol m c) (msg1 m c))
      (broadcastInDim S50000x32 ![0, 1] bcast_S50000x1_S50000x32_0_1 (denom m c)) := by
  show StableHlo.after hostOps1 (W2 m ρ c) (Proc.devRef .tc main_v14) = _
  generalize hW : W2 m ρ c = Wp
  after_results
  subst hW
  rw [at2_msg1, carry2 m ρ c main_arg1 later_arg1, W1_of m ρ c main_arg1 (by decide), carry2 m ρ c main_v7 later_v7, at1_denom]
  rfl

theorem at4_nodes1 : W4 m ρ c (Proc.devRef .tc main_v15) = nodes1 m c := by
  show StableHlo.after hostOps1_1 (W3 m ρ c) (Proc.devRef .tc main_v15) = _
  generalize hW : W3 m ρ c = Wp
  after_results
  subst hW
  simp only [TRef.ofBuf, TRef.toBuf, cast_eq]
  rw [at3_div]
  rfl

/-! ## The edge features at every later boundary: a region that reads them through an input window leaves them as they were -/

theorem edges2 : W2 m ρ c (Proc.devRef .tc main_v0) = edges m c :=
  (W2_arr m ρ c 0).trans ((((dat0 (V1 m ρ) c).arrAt_in 0 rfl _).trans (A_eq0 (V1 m ρ) c 0)).trans (at1_edges m ρ c))
theorem edges5 : W5 m ρ c (Proc.devRef .tc main_v0) = edges m c :=
  (after_of_writes_sub hostOps1_2 _ wr1_2_sub (by decide)).trans ((after_of_writes_sub hostOps1_1 _ wr1_1_sub (by decide)).trans
    ((after_of_writes_sub hostOps1 _ wr1_sub (by decide)).trans (edges2 m ρ c)))
theorem edges6 : W6 m ρ c (Proc.devRef .tc main_v0) = edges m c :=
  (W6_arr m ρ c 1).trans ((((dat1 (V5 m ρ) c).arrAt_in 1 rfl _).trans (A_eq1 (V5 m ρ) c 1)).trans (edges5 m ρ c))
theorem edges8 : W8 m ρ c (Proc.devRef .tc main_v0) = edges m c :=
  (W8_of_ne m ρ c main_v0 (by decide)).trans ((after_of_writes_sub hostOps2 _ wr2_sub (by decide)).trans (edges6 m ρ c))
theorem edges9 : W9 m ρ c (Proc.devRef .tc main_v0) = edges m c :=
  (after_of_writes_sub hostOps3 _ wr3_sub (by decide)).trans (edges8 m ρ c)

/-- An argument no region writes and no host stretch writes holds its launch contents at every boundary. -/
theorem keep4 (r : Ref sig .tc) (h : Later r) (h0 : r ∉ wr0) : W4 m ρ c (Proc.devRef .tc r) = arg m c r :=
  (carry4 m ρ c r h).trans (W1_of m ρ c r h0)
theorem keep6 (r : Ref sig .tc) (h : Later r) (h0 : r ∉ wr0) : W6 m ρ c (Proc.devRef .tc r) = arg m c r :=
  (carry6 m ρ c r h).trans (W1_of m ρ c r h0)
theorem keep8 (r : Ref sig .tc) (h : Later r) (h0 : r ∉ wr0) : W8 m ρ c (Proc.devRef .tc r) = arg m c r :=
  (carry8 m ρ c r h).trans (W1_of m ρ c r h0)

/-! ## The second region's inputs, and the second region -/

theorem at5_gather : W5 m ρ c (Proc.devRef .tc main_v22)
    = Host.gather gather_S50000x32_S800000x1_S800000x32_1_0_n_n_0_1_132 (nodes1 m c) (wrapCol (arg m c main_arg0)) := by
  show StableHlo.after hostOps1_2 (W4 m ρ c) (Proc.devRef .tc main_v22) = _
  generalize hW : W4 m ρ c = Wp
  after_results
  subst hW
  rw [at4_nodes1, keep4 m ρ c main_arg0 (by decide) (by decide)]
  rfl

theorem at5_left : W5 m ρ c (Proc.devRef .tc main_v24)
    = transpose S32x128 [1, 0] (extractStridedSlice S128x32 ![0, 0] (arg m c main_arg6) slices_S128x64_S128x32_0_0) transposes_S128x32_S32x128_1_0 := by
  show StableHlo.after hostOps1_2 (W4 m ρ c) (Proc.devRef .tc main_v24) = _
  generalize hW : W4 m ρ c = Wp
  after_results
  subst hW
  rw [keep4 m ρ c main_arg6 (by decide) (by decide)]

theorem at5_right : W5 m ρ c (Proc.devRef .tc main_v26)
    = transpose S32x128 [1, 0] (extractStridedSlice S128x32 ![0, 32] (arg m c main_arg6) slices_S128x64_S128x32_0_32) transposes_S128x32_S32x128_1_0 := by
  show StableHlo.after hostOps1_2 (W4 m ρ c) (Proc.devRef .tc main_v26) = _
  generalize hW : W4 m ρ c = Wp
  after_results
  subst hW
  rw [keep4 m ρ c main_arg6 (by decide) (by decide)]

theorem at5_bias : W5 m ρ c (Proc.devRef .tc main_v27) = shapeCast _ (arg m c main_arg7) shapeCasts_S128_S1x128 := by
  show StableHlo.after hostOps1_2 (W4 m ρ c) (Proc.devRef .tc main_v27) = _
  generalize hW : W4 m ρ c = Wp
  after_results
  subst hW
  rw [keep4 m ρ c main_arg7 (by decide) (by decide)]
  rfl

theorem at6_msg2 : W6 m ρ c (Proc.devRef .tc main_v28) = msg2 m c := by
  rw [show W6 m ρ c (Proc.devRef .tc main_v28) = (dat1 (V5 m ρ) c).arrAt 5 cfg1.N from W6_arr m ρ c 5, StageB.final]
  show linPair (W5 m ρ c (Proc.devRef .tc main_v22)) (W5 m ρ c (Proc.devRef .tc main_v0)) (W5 m ρ c (Proc.devRef .tc main_v24))
    (W5 m ρ c (Proc.devRef .tc main_v26)) (W5 m ρ c (Proc.devRef .tc main_v27)) = _
  rw [at5_gather, edges5, at5_left, at5_right, at5_bias]
  rfl

/-! ## The third region's inputs, and the third region -/

theorem at7_agg : W7 m ρ c (Proc.devRef .tc main_v33) = agg2 m c := by
  show StableHlo.after hostOps2 (W6 m ρ c) (Proc.devRef .tc main_v33) = _
  generalize hW : W6 m ρ c = Wp
  after_results
  subst hW
  rw [at6_msg2, keep6 m ρ c main_arg1 (by decide) (by decide), carry6 m ρ c main_v7 (by decide), at1_denom]
  rfl

theorem at7_bias : W7 m ρ c (Proc.devRef .tc main_v34) = shapeCast _ (arg m c main_arg9) shapeCasts_S128_S1x128 := by
  show StableHlo.after hostOps2 (W6 m ρ c) (Proc.devRef .tc main_v34) = _
  generalize hW : W6 m ρ c = Wp
  after_results
  subst hW
  rw [keep6 m ρ c main_arg9 (by decide) (by decide)]
  rfl

theorem at7_weight : W7 m ρ c (Proc.devRef .tc main_arg8) = arg m c main_arg8 :=
  (after_of_writes_sub hostOps2 _ wr2_sub (by decide)).trans ((W6_of_ne m ρ c main_arg8 (by decide)).trans
    ((after_of_writes_sub hostOps1_2 _ wr1_2_sub (by decide)).trans ((after_of_writes_sub hostOps1_1 _ wr1_1_sub (by decide)).trans
      ((after_of_writes_sub hostOps1 _ wr1_sub (by decide)).trans ((W2_of_ne m ρ c main_arg8 (by decide)).trans
        (W1_of m ρ c main_arg8 (by decide)))))))

theorem at8_nodes2 : W8 m ρ c (Proc.devRef .tc main_v35) = nodes2 m c := by
  rw [show W8 m ρ c (Proc.devRef .tc main_v35) = (dat2 (V7 m ρ) c).arrAt 3 cfg2.N from W8_arr m ρ c 3, StageC.final]
  show linDoubleRelu (W7 m ρ c (Proc.devRef .tc main_v33)) (W7 m ρ c (Proc.devRef .tc main_arg8)) (W7 m ρ c (Proc.devRef .tc main_v34)) = _
  rw [at7_agg, at7_weight, at7_bias]
  rfl

/-! ## The last region's inputs, and the last region -/

theorem at9_src : W9 m ρ c (Proc.devRef .tc main_v42)
    = Host.gather gather_S50000x128_S800000x1_S800000x128_1_0_n_n_0_1_1128 (nodes2 m c) (wrapCol (arg m c main_arg0)) := by
  show StableHlo.after hostOps3 (W8 m ρ c) (Proc.devRef .tc main_v42) = _
  generalize hW : W8 m ρ c = Wp
  after_results
  subst hW
  rw [at8_nodes2, keep8 m ρ c main_arg0 (by decide) (by decide)]
  rfl

theorem at9_dst : W9 m ρ c (Proc.devRef .tc main_v49)
    = Host.gather gather_S50000x128_S800000x1_S800000x128_1_0_n_n_0_1_1128 (nodes2 m c) (wrapCol (arg m c main_arg1)) := by
  show StableHlo.after hostOps3 (W8 m ρ c) (Proc.devRef .tc main_v49) = _
  generalize hW : W8 m ρ c = Wp
  after_results
  subst hW
  rw [at8_nodes2, keep8 m ρ c main_arg1 (by decide) (by decide)]
  rfl

theorem at9_inner : W9 m ρ c (Proc.devRef .tc main_arg10) = arg m c main_arg10 :=
  (carry9 m ρ c main_arg10 (by decide)).trans (W1_of m ρ c main_arg10 (by decide))

theorem at9_innerBias : W9 m ρ c (Proc.devRef .tc main_v54) = shapeCast _ (arg m c main_arg11) shapeCasts_S128_S1x128 := by
  show StableHlo.after hostOps3 (W8 m ρ c) (Proc.devRef .tc main_v54) = _
  generalize hW : W8 m ρ c = Wp
  after_results
  subst hW
  rw [keep8 m ρ c main_arg11 (by decide) (by decide)]
  rfl

theorem at9_left : W9 m ρ c (Proc.devRef .tc main_v51)
    = transpose S128x8 [1, 0] (extractStridedSlice S8x128 ![0, 0] (arg m c main_arg12) slices_S8x256_S8x128_0_0) transposes_S8x128_S128x8_1_0 := by
  show StableHlo.after hostOps3 (W8 m ρ c) (Proc.devRef .tc main_v51) = _
  generalize hW : W8 m ρ c = Wp
  after_results
  subst hW
  rw [keep8 m ρ c main_arg12 (by decide) (by decide)]

theorem at9_right : W9 m ρ c (Proc.devRef .tc main_v53)
    = transpose S128x8 [1, 0] (extractStridedSlice S8x128 ![0, 128] (arg m c main_arg12) slices_S8x256_S8x128_0_128) transposes_S8x128_S128x8_1_0 := by
  show StableHlo.after hostOps3 (W8 m ρ c) (Proc.devRef .tc main_v53) = _
  generalize hW : W8 m ρ c = Wp
  after_results
  subst hW
  rw [keep8 m ρ c main_arg12 (by decide) (by decide)]

theorem at9_bias : W9 m ρ c (Proc.devRef .tc main_v55) = shapeCast _ (arg m c main_arg13) shapeCasts_S8_S1x8 := by
  show StableHlo.after hostOps3 (W8 m ρ c) (Proc.devRef .tc main_v55) = _
  generalize hW : W8 m ρ c = Wp
  after_results
  subst hW
  rw [keep8 m ρ c main_arg13 (by decide) (by decide)]
  rfl

/-- THE RESULT: the result array after the last region is the edge score. -/
theorem result : W10 m ρ c (Proc.devRef .tc main_v56) = score m c := by
  rw [show W10 m ρ c (Proc.devRef .tc main_v56) = (dat3 (V9 m ρ) c).arrAt 8 cfg3.N from W10_arr m ρ c 8, StageD.final]
  show scoreRow (W9 m ρ c (Proc.devRef .tc main_v42)) (W9 m ρ c (Proc.devRef .tc main_v49)) (W9 m ρ c (Proc.devRef .tc main_v0))
    (W9 m ρ c (Proc.devRef .tc main_arg10)) (W9 m ρ c (Proc.devRef .tc main_v54)) (W9 m ρ c (Proc.devRef .tc main_v51))
    (W9 m ρ c (Proc.devRef .tc main_v53)) (W9 m ρ c (Proc.devRef .tc main_v55)) = _
  rw [at9_src, at9_dst, edges9, at9_inner, at9_innerBias, at9_left, at9_right, at9_bias]
  rfl

end Cert.KernelIdeal.Chain

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.RefStages.lean ====
/-
  The host program's four linear stages, each a whole-array term of StableHLO operations, are the entrywise
  functions of `Spec`:
  * `(e + e) Wᵀ + b` (a `dot_general` against the transposed weight, the bias broadcast over the rows) is `linDouble`;
  * the same followed by the maximum with the broadcast zero is `linDoubleRelu`;
  * `[h | e] Wᵀ + b`, the two inputs joined along the columns, is `linPair` against the two transposed halves of `W`:
    the sum over the joined columns splits at the joint;
  * the edge score `[10 a + 10 c | e Tᵀ + t] Wᵀ + b` is `scoreRow`, by the same split.
  On the right-hand sides the bias is the one-row array a reshape of the vector gives, and the halves of a weight
  are its column slices transposed: the forms the tiled program feeds its regions. Every statement is over any
  number of rows and any proofs of the shape side conditions, so it meets a printed term by rewriting.
-/
import proofs.«167760_j30245159698931_1_alg».proof.Proof.Spec
import proofs.«167760_j30245159698931_1_alg».proof.Proof.LibPlainDot
import proofs.«167760_j30245159698931_1_alg».proof.Proof.LibRowLayout
import Idealize.ShloMosaic.Lib.Pipeline.Value
import Idealize.ShloMosaic.Lib.ValueLayout

noncomputable section

namespace Cert.RefStages

open Idealize.ShloMosaic Idealize.ShloMosaic.ValueIdx Cert.Spec

/-- A bias vector `[N]` laid out as one row `[1, N]` and then broadcast over `n` rows reads, at `(p, q)`, the vector at `q`. -/
theorem biasRows_apply {α : Type} {n N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (q : Fin N) :
    broadcastInDim ⟨2, ![n, N]⟩ ![0, 1] h2 (broadcastInDim ⟨2, ![1, N]⟩ ![1] h1 b) (ix2 p q) = b (ix1 q) := by
  rw [broadcastInDim_apply _ h2 _ (ix2 p q) (ix2 (0 : Fin 1) q) (fun a => match a with
    | ⟨0, _⟩ => by show 0 = if (1 : Nat) = 1 then 0 else p.val; rw [if_pos rfl]
    | ⟨1, _⟩ => by
      show q.val = if N = 1 then 0 else q.val
      split
      · have := q.isLt; omega
      · rfl)]
  exact broadcastInDim_apply _ h1 b (ix2 (0 : Fin 1) q) (ix1 q) (fun a => match a with
    | ⟨0, _⟩ => by
      show q.val = if N = 1 then 0 else q.val
      split
      · have := q.isLt; omega
      · rfl)

/-- A scalar broadcast to `[n, N]` reads the scalar everywhere. -/
theorem scalarBcast_apply {α : Type} {n N : ℕ} (x : (⟨0, ![]⟩ : Shape).Idx → α)
    (h : (⟨0, ![]⟩ : Shape).BroadcastsInDim ⟨2, ![n, N]⟩ ![]) (p : Fin n) (q : Fin N) :
    broadcastInDim ⟨2, ![n, N]⟩ ![] h x (ix2 p q) = x ix0 :=
  broadcastInDim_apply _ h x (ix2 p q) ix0 (fun a => a.elim0)

variable {n : ℕ}

/-- Layer 1's message on the host, `(e + e) Wᵀ + b`, is `linDouble` with the bias as a one-row array. -/
theorem stageA {K N : ℕ} (d : DotDims ⟨2, ![n, K]⟩ ⟨2, ![K, N]⟩ ⟨2, ![n, N]⟩) (hd : d = DotDims.plain n K N)
    (e : FVec Ideal ⟨2, ![n, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (hs : (⟨1, ![N]⟩ : Shape).ShapeCasts ⟨2, ![1, N]⟩) :
    addf (Host.dotGeneral d none (addf e e) (transpose ⟨2, ![K, N]⟩ [1, 0] W ht))
        (broadcastInDim ⟨2, ![n, N]⟩ ![0, 1] h2 (broadcastInDim ⟨2, ![1, N]⟩ ![1] h1 b))
      = linDouble e W (shapeCast ⟨2, ![1, N]⟩ b hs) := by
  refine ext2 fun p q => ?_
  rw [addf_apply, PlainDot.dotGeneral_apply d hd, biasRows_apply]
  show _ = (∑ k : Fin K, (e (ix2 p k) + e (ix2 p k)) * W (ix2 q k)) + shapeCast ⟨2, ![1, N]⟩ b hs (ix2 (0 : Fin 1) q)
  rw [shapeCast_a_1a_apply b hs 0 q]
  have hT : ∀ k : Fin K, transpose ⟨2, ![K, N]⟩ [1, 0] W ht (ix2 k q) = W (ix2 q k) := fun k => transpose_ix2_apply W ht k q
  simp only [addf_apply, hT]

/-- The node update on the host, `relu ((x + x) Wᵀ + b)`, is `linDoubleRelu`. -/
theorem stageC {K N : ℕ} (d : DotDims ⟨2, ![n, K]⟩ ⟨2, ![K, N]⟩ ⟨2, ![n, N]⟩) (hd : d = DotDims.plain n K N)
    (x : FVec Ideal ⟨2, ![n, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (h0 : (⟨0, ![]⟩ : Shape).BroadcastsInDim ⟨2, ![n, N]⟩ ![])
    (hs : (⟨1, ![N]⟩ : Shape).ShapeCasts ⟨2, ![1, N]⟩) :
    maximumf (addf (Host.dotGeneral d none (addf x x) (transpose ⟨2, ![K, N]⟩ [1, 0] W ht))
          (broadcastInDim ⟨2, ![n, N]⟩ ![0, 1] h2 (broadcastInDim ⟨2, ![1, N]⟩ ![1] h1 b)))
        (broadcastInDim ⟨2, ![n, N]⟩ ![] h0 (constant (F := Ideal) ⟨0, ![]⟩ .f32 0x00000000#32))
      = linDoubleRelu x W (shapeCast ⟨2, ![1, N]⟩ b hs) := by
  refine ext2 fun p q => ?_
  rw [maximumf_apply, addf_apply, PlainDot.dotGeneral_apply d hd, biasRows_apply, scalarBcast_apply]
  show _ = max ((∑ k : Fin K, (x (ix2 p k) + x (ix2 p k)) * W (ix2 q k)) + shapeCast ⟨2, ![1, N]⟩ b hs (ix2 (0 : Fin 1) q)) zeroW
  rw [shapeCast_a_1a_apply b hs 0 q]
  have hT : ∀ k : Fin K, transpose ⟨2, ![K, N]⟩ [1, 0] W ht (ix2 k q) = W (ix2 q k) := fun k => transpose_ix2_apply W ht k q
  simp only [addf_apply, hT]
  rfl

/-- Layer 2's message on the host: the joined row `[h | e]` against `Wᵀ` is `h` against the transposed left half of
    `W` plus `e` against the transposed right half — a sum over the joined columns splits at the joint. -/
theorem stageB {K M N : ℕ} (hM : M = K + K) (d : DotDims ⟨2, ![n, M]⟩ ⟨2, ![M, N]⟩ ⟨2, ![n, N]⟩) (hd : d = DotDims.plain n M N)
    (h e : FVec Ideal ⟨2, ![n, K]⟩ .f32) (W : FVec Ideal ⟨2, ![N, M]⟩ .f32) (b : FVec Ideal ⟨1, ![N]⟩ .f32)
    (hc : Shape.Concatenates [(⟨2, ![n, K]⟩ : Shape), ⟨2, ![n, K]⟩] ⟨2, ![n, M]⟩ 1)
    (ht : (⟨2, ![N, M]⟩ : Shape).Transposes [1, 0] ⟨2, ![M, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (hs0 : (⟨2, ![N, M]⟩ : Shape).Slices ![0, 0] ⟨2, ![N, K]⟩)
    (hs1 : (⟨2, ![N, M]⟩ : Shape).Slices ![0, K] ⟨2, ![N, K]⟩)
    (ht' : (⟨2, ![N, K]⟩ : Shape).Transposes [1, 0] ⟨2, ![K, N]⟩)
    (hs : (⟨1, ![N]⟩ : Shape).ShapeCasts ⟨2, ![1, N]⟩) :
    addf (Host.dotGeneral d none (concatenate ⟨2, ![n, M]⟩ 1 [⟨⟨2, ![n, K]⟩, h⟩, ⟨⟨2, ![n, K]⟩, e⟩] hc)
          (transpose ⟨2, ![M, N]⟩ [1, 0] W ht))
        (broadcastInDim ⟨2, ![n, N]⟩ ![0, 1] h2 (broadcastInDim ⟨2, ![1, N]⟩ ![1] h1 b))
      = linPair h e (transpose ⟨2, ![K, N]⟩ [1, 0] (extractStridedSlice ⟨2, ![N, K]⟩ ![0, 0] W hs0) ht')
          (transpose ⟨2, ![K, N]⟩ [1, 0] (extractStridedSlice ⟨2, ![N, K]⟩ ![0, K] W hs1) ht')
          (shapeCast ⟨2, ![1, N]⟩ b hs) := by
  subst hM
  refine ext2 fun p q => ?_
  rw [addf_apply, PlainDot.dotGeneral_apply d hd, biasRows_apply]
  show _ = ((∑ k : Fin K, h (ix2 p k) * transpose ⟨2, ![K, N]⟩ [1, 0] (extractStridedSlice ⟨2, ![N, K]⟩ ![0, 0] W hs0) ht' (ix2 k q))
      + (∑ k : Fin K, e (ix2 p k) * transpose ⟨2, ![K, N]⟩ [1, 0] (extractStridedSlice ⟨2, ![N, K]⟩ ![0, K] W hs1) ht' (ix2 k q)))
      + shapeCast ⟨2, ![1, N]⟩ b hs (ix2 (0 : Fin 1) q)
  rw [shapeCast_a_1a_apply b hs 0 q]
  refine congrArg (· + b (ix1 q)) ?_
  refine PlainDot.sum_two_blocks (a := K) (b := K) rfl _ _ _ (fun k => ?_) (fun k => ?_)
  · show concatenate ⟨2, ![n, K + K]⟩ 1 [⟨⟨2, ![n, K]⟩, h⟩, ⟨⟨2, ![n, K]⟩, e⟩] hc (ix2 p ⟨k.val, by have := k.isLt; omega⟩)
        * transpose ⟨2, ![K + K, N]⟩ [1, 0] W ht (ix2 ⟨k.val, by have := k.isLt; omega⟩ q)
      = h (ix2 p k) * transpose ⟨2, ![K, N]⟩ [1, 0] (extractStridedSlice ⟨2, ![N, K]⟩ ![0, 0] W hs0) ht' (ix2 k q)
    rw [RowLayout.concatCols_apply h e hc rfl p ⟨k.val, by have := k.isLt; omega⟩, dif_pos (show k.val < K from k.isLt),
      transpose_ix2_apply W ht _ q, transpose_ix2_apply _ ht' k q,
      slice2_axis1_apply 0 W hs0 q k ⟨k.val, by have := k.isLt; omega⟩ (Nat.zero_add _).symm]
  · show concatenate ⟨2, ![n, K + K]⟩ 1 [⟨⟨2, ![n, K]⟩, h⟩, ⟨⟨2, ![n, K]⟩, e⟩] hc (ix2 p ⟨K + k.val, by have := k.isLt; omega⟩)
        * transpose ⟨2, ![K + K, N]⟩ [1, 0] W ht (ix2 ⟨K + k.val, by have := k.isLt; omega⟩ q)
      = e (ix2 p k) * transpose ⟨2, ![K, N]⟩ [1, 0] (extractStridedSlice ⟨2, ![N, K]⟩ ![0, K] W hs1) ht' (ix2 k q)
    rw [RowLayout.concatCols_apply h e hc rfl p ⟨K + k.val, by have := k.isLt; omega⟩,
      dif_neg (show ¬ (K + k.val < K) by omega),
      transpose_ix2_apply W ht _ q, transpose_ix2_apply _ ht' k q,
      slice2_axis1_apply K W hs1 q k ⟨K + k.val, by have := k.isLt; omega⟩ rfl]
    refine congrArg (fun z => e (ix2 p z) * _) (Fin.ext ?_)
    show K + k.val - K = k.val
    omega

/-- The edge score on the host: the joined row `[10 a + 10 c | e Tᵀ + t]` against `Wᵀ` splits at the joint into the
    first block against the transposed left half of `W` and the second against the transposed right half. -/
theorem stageD {H K M N : ℕ} (hM : M = H + H)
    (d : DotDims ⟨2, ![n, M]⟩ ⟨2, ![M, N]⟩ ⟨2, ![n, N]⟩) (hd : d = DotDims.plain n M N)
    (dE : DotDims ⟨2, ![n, K]⟩ ⟨2, ![K, H]⟩ ⟨2, ![n, H]⟩) (hdE : dE = DotDims.plain n K H)
    (a c : FVec Ideal ⟨2, ![n, H]⟩ .f32) (e : FVec Ideal ⟨2, ![n, K]⟩ .f32) (T : FVec Ideal ⟨2, ![H, K]⟩ .f32)
    (t : FVec Ideal ⟨1, ![H]⟩ .f32) (W : FVec Ideal ⟨2, ![N, M]⟩ .f32) (b : FVec Ideal ⟨1, ![N]⟩ .f32)
    (h0 h0' : (⟨0, ![]⟩ : Shape).BroadcastsInDim ⟨2, ![n, H]⟩ ![])
    (htT : (⟨2, ![H, K]⟩ : Shape).Transposes [1, 0] ⟨2, ![K, H]⟩)
    (h1t : (⟨1, ![H]⟩ : Shape).BroadcastsInDim ⟨2, ![1, H]⟩ ![1])
    (h2t : (⟨2, ![1, H]⟩ : Shape).BroadcastsInDim ⟨2, ![n, H]⟩ ![0, 1])
    (hc : Shape.Concatenates [(⟨2, ![n, H]⟩ : Shape), ⟨2, ![n, H]⟩] ⟨2, ![n, M]⟩ 1)
    (ht : (⟨2, ![N, M]⟩ : Shape).Transposes [1, 0] ⟨2, ![M, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (hs0 : (⟨2, ![N, M]⟩ : Shape).Slices ![0, 0] ⟨2, ![N, H]⟩)
    (hs1 : (⟨2, ![N, M]⟩ : Shape).Slices ![0, H] ⟨2, ![N, H]⟩)
    (ht' : (⟨2, ![N, H]⟩ : Shape).Transposes [1, 0] ⟨2, ![H, N]⟩)
    (hst : (⟨1, ![H]⟩ : Shape).ShapeCasts ⟨2, ![1, H]⟩)
    (hsb : (⟨1, ![N]⟩ : Shape).ShapeCasts ⟨2, ![1, N]⟩) :
    addf (Host.dotGeneral d none
          (concatenate ⟨2, ![n, M]⟩ 1
            [⟨⟨2, ![n, H]⟩, addf (mulf a (broadcastInDim ⟨2, ![n, H]⟩ ![] h0 (constant (F := Ideal) ⟨0, ![]⟩ .f32 0x41200000#32)))
                (mulf c (broadcastInDim ⟨2, ![n, H]⟩ ![] h0' (constant (F := Ideal) ⟨0, ![]⟩ .f32 0x41200000#32)))⟩,
             ⟨⟨2, ![n, H]⟩, addf (Host.dotGeneral dE none e (transpose ⟨2, ![K, H]⟩ [1, 0] T htT))
                (broadcastInDim ⟨2, ![n, H]⟩ ![0, 1] h2t (broadcastInDim ⟨2, ![1, H]⟩ ![1] h1t t))⟩] hc)
          (transpose ⟨2, ![M, N]⟩ [1, 0] W ht))
        (broadcastInDim ⟨2, ![n, N]⟩ ![0, 1] h2 (broadcastInDim ⟨2, ![1, N]⟩ ![1] h1 b))
      = scoreRow a c e T (shapeCast ⟨2, ![1, H]⟩ t hst)
          (transpose ⟨2, ![H, N]⟩ [1, 0] (extractStridedSlice ⟨2, ![N, H]⟩ ![0, 0] W hs0) ht')
          (transpose ⟨2, ![H, N]⟩ [1, 0] (extractStridedSlice ⟨2, ![N, H]⟩ ![0, H] W hs1) ht')
          (shapeCast ⟨2, ![1, N]⟩ b hsb) := by
  subst hM
  set cc : FVec Ideal ⟨2, ![n, H]⟩ .f32 := addf (mulf a (broadcastInDim ⟨2, ![n, H]⟩ ![] h0 (constant (F := Ideal) ⟨0, ![]⟩ .f32 0x41200000#32)))
      (mulf c (broadcastInDim ⟨2, ![n, H]⟩ ![] h0' (constant (F := Ideal) ⟨0, ![]⟩ .f32 0x41200000#32))) with hcc
  set eh : FVec Ideal ⟨2, ![n, H]⟩ .f32 := addf (Host.dotGeneral dE none e (transpose ⟨2, ![K, H]⟩ [1, 0] T htT))
      (broadcastInDim ⟨2, ![n, H]⟩ ![0, 1] h2t (broadcastInDim ⟨2, ![1, H]⟩ ![1] h1t t)) with heh
  refine ext2 fun p q => ?_
  rw [addf_apply, PlainDot.dotGeneral_apply d hd, biasRows_apply]
  show _ = ((∑ j : Fin H, (a (ix2 p j) * tenW + c (ix2 p j) * tenW)
          * transpose ⟨2, ![H, N]⟩ [1, 0] (extractStridedSlice ⟨2, ![N, H]⟩ ![0, 0] W hs0) ht' (ix2 j q))
      + (∑ j : Fin H, ((∑ k : Fin K, e (ix2 p k) * T (ix2 j k)) + shapeCast ⟨2, ![1, H]⟩ t hst (ix2 (0 : Fin 1) j))
          * transpose ⟨2, ![H, N]⟩ [1, 0] (extractStridedSlice ⟨2, ![N, H]⟩ ![0, H] W hs1) ht' (ix2 j q)))
      + shapeCast ⟨2, ![1, N]⟩ b hsb (ix2 (0 : Fin 1) q)
  rw [shapeCast_a_1a_apply b hsb 0 q]
  refine congrArg (· + b (ix1 q)) ?_
  refine PlainDot.sum_two_blocks (a := H) (b := H) rfl _ _ _ (fun j => ?_) (fun j => ?_)
  · show concatenate ⟨2, ![n, H + H]⟩ 1 [⟨⟨2, ![n, H]⟩, cc⟩, ⟨⟨2, ![n, H]⟩, eh⟩] hc (ix2 p ⟨j.val, by have := j.isLt; omega⟩)
        * transpose ⟨2, ![H + H, N]⟩ [1, 0] W ht (ix2 ⟨j.val, by have := j.isLt; omega⟩ q)
      = (a (ix2 p j) * tenW + c (ix2 p j) * tenW)
        * transpose ⟨2, ![H, N]⟩ [1, 0] (extractStridedSlice ⟨2, ![N, H]⟩ ![0, 0] W hs0) ht' (ix2 j q)
    rw [RowLayout.concatCols_apply cc eh hc rfl p ⟨j.val, by have := j.isLt; omega⟩, dif_pos (show j.val < H from j.isLt),
      transpose_ix2_apply W ht _ q, transpose_ix2_apply _ ht' j q,
      slice2_axis1_apply 0 W hs0 q j ⟨j.val, by have := j.isLt; omega⟩ (Nat.zero_add _).symm,
      hcc, addf_apply, mulf_apply, mulf_apply, scalarBcast_apply]
    rfl
  · show concatenate ⟨2, ![n, H + H]⟩ 1 [⟨⟨2, ![n, H]⟩, cc⟩, ⟨⟨2, ![n, H]⟩, eh⟩] hc (ix2 p ⟨H + j.val, by have := j.isLt; omega⟩)
        * transpose ⟨2, ![H + H, N]⟩ [1, 0] W ht (ix2 ⟨H + j.val, by have := j.isLt; omega⟩ q)
      = ((∑ k : Fin K, e (ix2 p k) * T (ix2 j k)) + shapeCast ⟨2, ![1, H]⟩ t hst (ix2 (0 : Fin 1) j))
        * transpose ⟨2, ![H, N]⟩ [1, 0] (extractStridedSlice ⟨2, ![N, H]⟩ ![0, H] W hs1) ht' (ix2 j q)
    rw [RowLayout.concatCols_apply cc eh hc rfl p ⟨H + j.val, by have := j.isLt; omega⟩,
      dif_neg (show ¬ (H + j.val < H) by omega),
      transpose_ix2_apply W ht _ q, transpose_ix2_apply _ ht' j q,
      slice2_axis1_apply H W hs1 q j ⟨H + j.val, by have := j.isLt; omega⟩ rfl,
      shapeCast_a_1a_apply t hst 0 j]
    have hj : (⟨H + j.val - H, by have := j.isLt; omega⟩ : Fin H) = j := Fin.ext (by show H + j.val - H = j.val; omega)
    rw [hj, heh, addf_apply, PlainDot.dotGeneral_apply dE hdE, biasRows_apply]
    have hT : ∀ k : Fin K, transpose ⟨2, ![K, H]⟩ [1, 0] T htT (ix2 k j) = T (ix2 j k) := fun k => transpose_ix2_apply T htT k j
    simp only [hT]

end Cert.RefStages

end
-- ==== Proof.RefValue.lean ====
/-
  The host program's stages, read one operation at a time, are the tiled program's stages of `KernelTerms` at the
  same arguments: the operations between the linear stages are the same on both sides (the scatter-adds of the mean,
  the division, the rectifier, the gathers), and each linear stage is the entrywise function the tiled program
  computes (`RefStages`). So the host program's result is the tiled program's edge score.
-/
import proofs.«167760_j30245159698931_1_alg».proof.Proof.Gen.ReferenceIdeal.Read
import proofs.«167760_j30245159698931_1_alg».proof.Proof.KernelTerms
import proofs.«167760_j30245159698931_1_alg».proof.Proof.RefStages

set_option maxRecDepth 16384

noncomputable section

namespace Cert.RefValue

open Idealize.ShloMosaic Idealize.ShloMosaic.TcCoe Idealize.SL.Sem Cert.Spec
open Cert.KernelIdeal.Chain
open Cert.ReferenceIdeal Cert.ReferenceIdeal.Read

variable (m : (ℓ : Loc Cert.KernelIdeal.nD Cert.KernelIdeal.τ Cert.KernelIdeal.sig) → Buf (Elt Ideal) ℓ) (c : Dev Cert.KernelIdeal.nD)

/-- The tiled program's argument `k`, where the host program's stage functions take theirs. -/
local notation "a0" => arg m c Cert.KernelIdeal.main_arg0
local notation "a1" => arg m c Cert.KernelIdeal.main_arg1
local notation "a3" => arg m c Cert.KernelIdeal.main_arg3
local notation "a4" => arg m c Cert.KernelIdeal.main_arg4
local notation "a5" => arg m c Cert.KernelIdeal.main_arg5
local notation "a6" => arg m c Cert.KernelIdeal.main_arg6
local notation "a7" => arg m c Cert.KernelIdeal.main_arg7
local notation "a8" => arg m c Cert.KernelIdeal.main_arg8
local notation "a9" => arg m c Cert.KernelIdeal.main_arg9
local notation "a10" => arg m c Cert.KernelIdeal.main_arg10
local notation "a11" => arg m c Cert.KernelIdeal.main_arg11
local notation "a12" => arg m c Cert.KernelIdeal.main_arg12
local notation "a13" => arg m c Cert.KernelIdeal.main_arg13

/-- The edge features: the same reshape. -/
theorem edges_eq : val_main_v0 (F := Ideal) a3 = edges m c := rfl

/-- The destination column: the same broadcast. -/
theorem dstCol_eq15 : val_main_v15 (F := Ideal) a1 = dstCol m c := rfl
theorem dstCol_eq34 : val_main_v34 (F := Ideal) a1 = dstCol m c := rfl

/-- The denominator: the same scatter-add of ones, maximum with one, column. -/
theorem denom_eq : val_main_v7 (F := Ideal) a1 = denom m c := rfl

/-- Layer 1's message. -/
theorem msg1_eq : val_main_v13 (F := Ideal) a3 a4 a5 = msg1 m c := by
  unfold val_main_v13 val_main_v10 val_main_v12 val_main_v11 val_main_v9 val_main_v8
  rw [edges_eq]
  exact RefStages.stageA dot_S800000x32_S32x32_S800000x32_1_0_0_1_n_n rfl (edges m c) a4 a5 _ _ _ _

/-- Layer 1's node features. -/
theorem nodes1_eq : val_main_v19 (F := Ideal) a1 a3 a4 a5 = nodes1 m c := by
  unfold val_main_v19 val_main_v18 val_main_v16 val_main_v17
  rw [msg1_eq, denom_eq, dstCol_eq15]
  rfl

/-- The source's node features, gathered. -/
theorem gather1_eq : val_main_v26 (F := Ideal) a0 a1 a3 a4 a5
    = Host.gather Cert.KernelIdeal.gather_S50000x32_S800000x1_S800000x32_1_0_n_n_0_1_132 (nodes1 m c) (wrapCol a0) := by
  unfold val_main_v26
  rw [nodes1_eq]
  rfl

/-- Layer 2's message. -/
theorem msg2_eq : val_main_v32 (F := Ideal) a0 a1 a3 a4 a5 a6 a7 = msg2 m c := by
  unfold val_main_v32 val_main_v29 val_main_v31 val_main_v30 val_main_v28 val_main_v27
  rw [gather1_eq, edges_eq]
  exact RefStages.stageB (K := 32) (M := 64) rfl dot_S800000x64_S64x128_S800000x128_1_0_0_1_n_n rfl _ (edges m c) a6 a7 _ _ _ _ _ _ _ _

/-- Layer 2's aggregate. -/
theorem agg2_eq : val_main_v37 (F := Ideal) a0 a1 a3 a4 a5 a6 a7 = agg2 m c := by
  unfold val_main_v37 val_main_v35 val_main_v36
  rw [msg2_eq, denom_eq, dstCol_eq34]
  rfl

/-- Layer 2's node features. -/
theorem nodes2_eq : val_main_v44 (F := Ideal) a0 a1 a3 a4 a5 a6 a7 a8 a9 = nodes2 m c := by
  unfold val_main_v44 val_main_v43 val_main_v40 val_main_v42 val_main_v41 val_main_v39 val_main_v38 val_main_call1_v0 val_main_call1_cst
  rw [agg2_eq]
  exact RefStages.stageC dot_S50000x128_S128x128_S50000x128_1_0_0_1_n_n rfl (agg2 m c) a8 a9 _ _ _ _ _

/-- The edge scores. -/
theorem score_eq : val_main_v74 (F := Ideal) a0 a1 a3 a4 a5 a6 a7 a8 a9 a10 a11 a12 a13 = score m c := by
  unfold val_main_v74 val_main_v71 val_main_v73 val_main_v72 val_main_v70 val_main_v69 val_main_v63 val_main_v53 val_main_v62
    val_main_v52 val_main_v61 val_main_cst_7 val_main_cst_10 val_main_v51 val_main_v60 val_main_v68 val_main_v65 val_main_v67 val_main_v66 val_main_v64
  rw [nodes2_eq, edges_eq]
  exact RefStages.stageD (H := 128) (K := 32) (M := 256) rfl dot_S800000x256_S256x8_S800000x8_1_0_0_1_n_n rfl
    dot_S800000x32_S32x128_S800000x128_1_0_0_1_n_n rfl _ _ (edges m c) a10 a11 a12 a13 _ _ _ _ _ _ _ _ _ _ _ _ _ _

end Cert.RefValue

end
-- ==== Proof.lean ====
/-
  A two-layer message-passing network over a graph of 50000 nodes and 800000 edges, with an edge-score head.
  The tiled program computes the four linear stages — `(e + e) Wᵀ + b` per edge, `h[src] U + e V + b` per edge,
  `relu ((x + x) Wᵀ + b)` per node, and the edge score — each in its own region, row tile by row tile, with the two
  weights of a joined input already split into halves; the host program computes them as whole-array products,
  joining `[h[src] | e]` and `[10 h₂[src] + 10 h₂[dst] | e Tᵀ + t]` along the columns first. Between the stages both
  apply the same host operations (the degree and the mean by scatter-add and division, the rectifier, the gathers).

  On the extended reals the casts to `bf16` are the identity and a product against a joined row is the sum of the
  two halves' products, so the two programs are one function of the arguments:
  * `KernelRun`  : the tiled program's run, its result array named at the last region's exit;
  * `RegionA … RegionD` : each region leaves its output array at its stage of the arrays it finds at entry;
  * `KernelChain`: followed through the host stretches, the result array is `Chain.score` of the launch memory;
  * `RefStages`, `RefValue`: the host program's result, read one operation at a time, is the same `Chain.score`.
  The frames are the generated ones; the host program's frame is its generated run with the result dropped. The
  idealization rewrote no operation, so `preserves` has nothing to state.
-/
import proofs.«167760_j30245159698931_1_alg».proof.Defs
import proofs.«167760_j30245159698931_1_alg».proof.Proof.Gen.Kernel
import proofs.«167760_j30245159698931_1_alg».proof.Proof.Gen.Kernel.Frame
import proofs.«167760_j30245159698931_1_alg».proof.Proof.Gen.KernelIdeal
import proofs.«167760_j30245159698931_1_alg».proof.Proof.Gen.KernelIdeal.Frame
import proofs.«167760_j30245159698931_1_alg».proof.Proof.Gen.ReferenceIdeal
import proofs.«167760_j30245159698931_1_alg».proof.Proof.Gen.ReferenceIdeal.Run
import proofs.«167760_j30245159698931_1_alg».proof.Proof.Gen.ReferenceIdeal.Read
import proofs.«167760_j30245159698931_1_alg».proof.Proof.Gen.Pre_finite_inputs
import proofs.«167760_j30245159698931_1_alg».proof.Proof.KernelRun
import proofs.«167760_j30245159698931_1_alg».proof.Proof.KernelChain
import proofs.«167760_j30245159698931_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The host program terminates with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the edge score `Chain.score` of the (agreeing) arguments. -/
theorem algebraic : Cert.algebraic_KernelIdeal_ReferenceIdeal := by
  intro m ρ m' ρ' _ hagree
  refine ⟨fun c => Cert.KernelIdeal.Chain.score m c, ?_, ?_⟩
  · exact (θ_run Cert.KernelIdeal.defs _ _).mono
      (fun r h c => ⟨(h c).1.trans (Cert.KernelIdeal.Chain.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v74_eq, h0, h1, h3, h4, h5, h6, h7, h8, h9, h10, h11, h12, h13]
    exact Cert.RefValue.score_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
